-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8 : Shape := ⟨3, ![16, 512, 8]⟩
abbrev S64x32x8 : Shape := ⟨3, ![64, 32, 8]⟩
abbrev S_ : Shape := ⟨0, ![]⟩

class Facts : Prop where
  bcast_S_S16x512x8 : S_.BroadcastsInDim S16x512x8 (![] : Fin 0 → Fin S16x512x8.rank)
  reducesTo_S16x512x8_S_d0_1_2 : S16x512x8.ReducesTo [0, 1, 2] S_
  h_S_ : 0 < S_.numel
  bcast_S_S64x32x8 : S_.BroadcastsInDim S64x32x8 (![] : Fin 0 → Fin S64x32x8.rank)
  reducesTo_S64x32x8_S_d0_1_2 : S64x32x8.ReducesTo [0, 1, 2] S_

variable [Facts]

def fn {F : FTy → Type} [FloatOps F] (main_arg0 : FVec F S16x512x8 .f32) (main_arg1 : FVec F S64x32x8 .f32) : IVec S_ 1 :=
  let main_v0 : FVec F S16x512x8 .f32 := Host.absf main_arg0
  let main_cst : FVec F S_ .f32 := constant S_ .f32 0x7F800000#32
  let main_v1 : FVec F S16x512x8 .f32 := broadcastInDim S16x512x8 ![] bcast_S_S16x512x8 main_cst
  let main_v2 : IVec S16x512x8 1 := cmpf .olt main_v0 main_v1
  let main_c : IVec S_ 1 := constantI S_ 1 1#1
  let main_v3 : IVec S_ 1 := (fun x v => Host.reduce IntOp.andi x v reducesTo_S16x512x8_S_d0_1_2 h_S_) main_v2 main_c
  let main_v4 : FVec F S64x32x8 .f32 := Host.absf main_arg1
  let main_cst_0 : FVec F S_ .f32 := constant S_ .f32 0x7F800000#32
  let main_v5 : FVec F S64x32x8 .f32 := broadcastInDim S64x32x8 ![] bcast_S_S64x32x8 main_cst_0
  let main_v6 : IVec S64x32x8 1 := cmpf .olt main_v4 main_v5
  let main_c_1 : IVec S_ 1 := constantI S_ 1 1#1
  let main_v7 : IVec S_ 1 := (fun x v => Host.reduce IntOp.andi x v reducesTo_S64x32x8_S_d0_1_2 h_S_) main_v6 main_c_1
  let main_v8 : IVec S_ 1 := andi main_v3 main_v7
  main_v8
-- ==== Kernel.lean ====
abbrev S16x512x8 : Shape := ⟨3, ![16, 512, 8]⟩
abbrev S64x32x8 : Shape := ⟨3, ![64, 32, 8]⟩
abbrev S_ : Shape := ⟨0, ![]⟩
abbrev S16x8 : Shape := ⟨2, ![16, 8]⟩
abbrev S16x1x8 : Shape := ⟨3, ![16, 1, 8]⟩
abbrev S481 : Shape := ⟨1, ![481]⟩
abbrev S481x1 : Shape := ⟨2, ![481, 1]⟩
abbrev S32 : Shape := ⟨1, ![32]⟩
abbrev S1x32 : Shape := ⟨2, ![1, 32]⟩
abbrev S481x32 : Shape := ⟨2, ![481, 32]⟩
abbrev S481x32x1 : Shape := ⟨3, ![481, 32, 1]⟩
abbrev S16x481x32x8 : Shape := ⟨4, ![16, 481, 32, 8]⟩
abbrev S16x481x8x32 : Shape := ⟨4, ![16, 481, 8, 32]⟩
abbrev S64 : Shape := ⟨1, ![64]⟩
abbrev S64x1x1 : Shape := ⟨3, ![64, 1, 1]⟩
abbrev S16x481x32 : Shape := ⟨3, ![16, 481, 32]⟩
abbrev S1x481x32x8 : Shape := ⟨4, ![1, 481, 32, 8]⟩
abbrev S1x481x32 : Shape := ⟨3, ![1, 481, 32]⟩
abbrev S481x32x8 : Shape := ⟨3, ![481, 32, 8]⟩
abbrev S64x32 : Shape := ⟨2, ![64, 32]⟩
abbrev S481x64x32 : Shape := ⟨3, ![481, 64, 32]⟩
abbrev S64x32x1 : Shape := ⟨3, ![64, 32, 1]⟩
abbrev S481x1x32 : Shape := ⟨3, ![481, 1, 32]⟩
abbrev S1x64x32 : Shape := ⟨3, ![1, 64, 32]⟩

abbrev nBuf : Space → Nat
  | .hbm => 97
  | .vmem => 5
  | .smem => 0
  | _ => 0

abbrev bufTy : (tb : Table) → Fin (tcTables nBuf tb) → BufTy
  | .hbm, ⟨0, _⟩ => ⟨S16x512x8, .f32⟩
  | .hbm, ⟨1, _⟩ => ⟨S64x32x8, .f32⟩
  | .hbm, ⟨2, _⟩ => ⟨S_, .f32⟩
  | .hbm, ⟨3, _⟩ => ⟨S16x8, .f32⟩
  | .hbm, ⟨4, _⟩ => ⟨S16x1x8, .f32⟩
  | .hbm, ⟨5, _⟩ => ⟨S_, .f32⟩
  | .hbm, ⟨6, _⟩ => ⟨S16x1x8, .f32⟩
  | .hbm, ⟨7, _⟩ => ⟨S16x1x8, .f32⟩
  | .hbm, ⟨8, _⟩ => ⟨S_, .i32⟩
  | .hbm, ⟨9, _⟩ => ⟨S_, .f32⟩
  | .hbm, ⟨10, _⟩ => ⟨S16x8, .f32⟩
  | .hbm, ⟨11, _⟩ => ⟨S16x1x8, .f32⟩
  | .hbm, ⟨12, _⟩ => ⟨S_, .f32⟩
  | .hbm, ⟨13, _⟩ => ⟨S16x1x8, .f32⟩
  | .hbm, ⟨14, _⟩ => ⟨S16x1x8, .f32⟩
  | .hbm, ⟨15, _⟩ => ⟨S16x512x8, .f32⟩
  | .hbm, ⟨16, _⟩ => ⟨S16x512x8, .f32⟩
  | .hbm, ⟨17, _⟩ => ⟨S16x512x8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x8, .f32⟩
  | .hbm, ⟨23, _⟩ => ⟨S16x1x8, .f32⟩
  | .hbm, ⟨24, _⟩ => ⟨S16x1x8, .f32⟩
  | .hbm, ⟨25, _⟩ => ⟨S16x1x8, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S16x1x8, .f32⟩
  | .hbm, ⟨31, _⟩ => ⟨S16x1x8, .f32⟩
  | .hbm, ⟨32, _⟩ => ⟨S16x1x8, .f32⟩
  | .hbm, ⟨33, _⟩ => ⟨S_, .f32⟩
  | .hbm, ⟨34, _⟩ => ⟨S16x1x8, .f32⟩
  | .hbm, ⟨35, _⟩ => ⟨S16x1x8, .f32⟩
  | .hbm, ⟨36, _⟩ => ⟨S16x512x8, .f32⟩
  | .hbm, ⟨37, _⟩ => ⟨S16x512x8, .f32⟩
  | .hbm, ⟨38, _⟩ => ⟨S16x512x8, .f32⟩
  | .hbm, ⟨39, _⟩ => ⟨S16x512x8, .f32⟩
  | .hbm, ⟨40, _⟩ => ⟨S481, .i32⟩
  | .hbm, ⟨41, _⟩ => ⟨S481x1, .i32⟩
  | .hbm, ⟨42, _⟩ => ⟨S32, .i32⟩
  | .hbm, ⟨43, _⟩ => ⟨S1x32, .i32⟩
  | .hbm, ⟨44, _⟩ => ⟨S481x32, .i32⟩
  | .hbm, ⟨45, _⟩ => ⟨S481x32, .i32⟩
  | .hbm, ⟨46, _⟩ => ⟨S481x32, .i32⟩
  | .hbm, ⟨47, _⟩ => ⟨S_, .i32⟩
  | .hbm, ⟨48, _⟩ => ⟨S481x32, .i32⟩
  | .hbm, ⟨49, _⟩ => ⟨S481x32, .i1⟩
  | .hbm, ⟨50, _⟩ => ⟨S_, .i32⟩
  | .hbm, ⟨51, _⟩ => ⟨S481x32, .i32⟩
  | .hbm, ⟨52, _⟩ => ⟨S481x32, .i32⟩
  | .hbm, ⟨53, _⟩ => ⟨S481x32, .i32⟩
  | .hbm, ⟨54, _⟩ => ⟨S481x32x1, .i32⟩
  | .hbm, ⟨55, _⟩ => ⟨S16x481x32x8, .f32⟩
  | .hbm, ⟨56, _⟩ => ⟨S16x481x8x32, .f32⟩
  | .hbm, ⟨57, _⟩ => ⟨S16x481x32x8, .f32⟩
  | .hbm, ⟨58, _⟩ => ⟨S_, .f32⟩
  | .hbm, ⟨59, _⟩ => ⟨S64, .f32⟩
  | .hbm, ⟨60, _⟩ => ⟨S64x1x1, .f32⟩
  | .hbm, ⟨61, _⟩ => ⟨S_, .f32⟩
  | .hbm, ⟨62, _⟩ => ⟨S64x1x1, .f32⟩
  | .hbm, ⟨63, _⟩ => ⟨S64x1x1, .f32⟩
  | .hbm, ⟨64, _⟩ => ⟨S_, .i32⟩
  | .hbm, ⟨65, _⟩ => ⟨S_, .f32⟩
  | .hbm, ⟨66, _⟩ => ⟨S64, .f32⟩
  | .hbm, ⟨67, _⟩ => ⟨S64x1x1, .f32⟩
  | .hbm, ⟨68, _⟩ => ⟨S_, .f32⟩
  | .hbm, ⟨69, _⟩ => ⟨S64x1x1, .f32⟩
  | .hbm, ⟨70, _⟩ => ⟨S64x1x1, .f32⟩
  | .hbm, ⟨71, _⟩ => ⟨S64x32x8, .f32⟩
  | .hbm, ⟨72, _⟩ => ⟨S64x32x8, .f32⟩
  | .hbm, ⟨73, _⟩ => ⟨S64x32x8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S64, .f32⟩
  | .hbm, ⟨79, _⟩ => ⟨S64x1x1, .f32⟩
  | .hbm, ⟨80, _⟩ => ⟨S64x1x1, .f32⟩
  | .hbm, ⟨81, _⟩ => ⟨S64x1x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S64x1x1, .f32⟩
  | .hbm, ⟨87, _⟩ => ⟨S64x1x1, .f32⟩
  | .hbm, ⟨88, _⟩ => ⟨S64x1x1, .f32⟩
  | .hbm, ⟨89, _⟩ => ⟨S_, .f32⟩
  | .hbm, ⟨90, _⟩ => ⟨S64x1x1, .f32⟩
  | .hbm, ⟨91, _⟩ => ⟨S64x1x1, .f32⟩
  | .hbm, ⟨92, _⟩ => ⟨S64x32x8, .f32⟩
  | .hbm, ⟨93, _⟩ => ⟨S64x32x8, .f32⟩
  | .hbm, ⟨94, _⟩ => ⟨S64x32x8, .f32⟩
  | .hbm, ⟨95, _⟩ => ⟨S64x32x8, .f32⟩
  | .hbm, ⟨96, _⟩ => ⟨S16x481x32, .f32⟩
  | .local _ .vmem, ⟨0, _⟩ => ⟨S1x481x32x8, .f32⟩
  | .local _ .vmem, ⟨1, _⟩ => ⟨S1x481x32x8, .f32⟩
  | .local _ .vmem, ⟨2, _⟩ => ⟨S64x32x8, .f32⟩
  | .local _ .vmem, ⟨3, _⟩ => ⟨S1x481x32, .f32⟩
  | .local _ .vmem, ⟨4, _⟩ => ⟨S1x481x32, .f32⟩
  | _, _ => ⟨S16x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_cst_0 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_cst_1 : Ref sig .tc := ⟨.hbm, 75, rfl⟩
abbrev main_call1_call0_v8 : Ref sig .tc := ⟨.hbm, 76, rfl⟩
abbrev main_call1_call0_cst_2 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_call0_v12 : Ref sig .tc := ⟨.hbm, 81, rfl⟩
abbrev main_call1_call0_cst_3 : Ref sig .tc := ⟨.hbm, 82, rfl⟩
abbrev main_call1_call0_v13 : Ref sig .tc := ⟨.hbm, 83, rfl⟩
abbrev main_call1_call0_cst_4 : Ref sig .tc := ⟨.hbm, 84, rfl⟩
abbrev main_call1_call0_call0_v0 : Ref sig .tc := ⟨.hbm, 85, rfl⟩
abbrev main_call1_call0_call0_v1 : Ref sig .tc := ⟨.hbm, 86, rfl⟩
abbrev main_call1_v0 : Ref sig .tc := ⟨.hbm, 87, rfl⟩
abbrev main_v31 : Ref sig .tc := ⟨.hbm, 88, rfl⟩
abbrev main_cst_7 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x481x32x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x481x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S16x512x8_S16x8_d1 : S16x512x8.ReducesTo [1] S16x8
  h_S_ : 0 < S_.numel
  bcast_S16x8_S16x1x8_0_2 : S16x8.BroadcastsInDim S16x1x8 (![0, 2] : Fin 2 → Fin S16x1x8.rank)
  bcast_S_S16x1x8 : S_.BroadcastsInDim S16x1x8 (![] : Fin 0 → Fin S16x1x8.rank)
  bcast_S16x1x8_S16x512x8_0_1_2 : S16x1x8.BroadcastsInDim S16x512x8 (![0, 1, 2] : Fin 3 → Fin S16x512x8.rank)
  bcast_S481_S481x1_0 : S481.BroadcastsInDim S481x1 (![0] : Fin 1 → Fin S481x1.rank)
  bcast_S32_S1x32_1 : S32.BroadcastsInDim S1x32 (![1] : Fin 1 → Fin S1x32.rank)
  bcast_S481x1_S481x32_0_1 : S481x1.BroadcastsInDim S481x32 (![0, 1] : Fin 2 → Fin S481x32.rank)
  bcast_S1x32_S481x32_0_1 : S1x32.BroadcastsInDim S481x32 (![0, 1] : Fin 2 → Fin S481x32.rank)
  bcast_S_S481x32 : S_.BroadcastsInDim S481x32 (![] : Fin 0 → Fin S481x32.rank)
  bcast_S481x32_S481x32x1_0_1 : S481x32.BroadcastsInDim S481x32x1 (![0, 1] : Fin 2 → Fin S481x32x1.rank)
  transposes_S16x481x32x8_S16x481x8x32_0_1_3_2 : S16x481x32x8.Transposes [0, 1, 3, 2] S16x481x8x32
  shapeCasts_S16x481x8x32_S16x481x32x8 : S16x481x8x32.ShapeCasts S16x481x32x8
  reducesTo_S64x32x8_S64_d1_2 : S64x32x8.ReducesTo [1, 2] S64
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x32x8_0_1_2 : S64x1x1.BroadcastsInDim S64x32x8 (![0, 1, 2] : Fin 3 → Fin S64x32x8.rank)
  inb_S1x481x32x8_S1x481x32x8_0_0_0_0 : ∀ a, (![0, 0, 0, 0] : Fin 4 → Nat) a + S1x481x32x8.size a ≤ S1x481x32x8.size a
  h_S1x481x32x8 : 0 < S1x481x32x8.numel
  shapeCasts_S1x481x32x8_S481x32x8 : S1x481x32x8.ShapeCasts S481x32x8
  inb_S64x32x8_S64x32x8_0_0_0 : ∀ a, (![0, 0, 0] : Fin 3 → Nat) a + S64x32x8.size a ≤ S64x32x8.size a
  h_S64x32x8 : 0 < S64x32x8.numel
  shapeCasts_S64x32x8_S64x32x8 : S64x32x8.ShapeCasts S64x32x8
  reduces_S481x32x8_S481x32 : S481x32x8.Reduces [2] S481x32
  reduces_S64x32x8_S64x32 : S64x32x8.Reduces [2] S64x32
  slices_S481x32x8_o0_0_0_S481x32x1 : S481x32x8.Slices ![0, 0, 0] S481x32x1
  shapeCasts_S481x32x1_S481x32 : S481x32x1.ShapeCasts S481x32
  slices_S64x32x8_o0_0_0_S64x32x1 : S64x32x8.Slices ![0, 0, 0] S64x32x1
  shapeCasts_S64x32x1_S64x32 : S64x32x1.ShapeCasts S64x32
  shapeCasts_S481x32_S481x1x32 : S481x32.ShapeCasts S481x1x32
  shapeCasts_S64x32_S1x64x32 : S64x32.ShapeCasts S1x64x32
  broadcasts_S481x1x32_S481x64x32 : S481x1x32.Broadcasts S481x64x32
  broadcasts_S1x64x32_S481x64x32 : S1x64x32.Broadcasts S481x64x32
  slices_S481x32x8_o0_0_1_S481x32x1 : S481x32x8.Slices ![0, 0, 1] S481x32x1
  slices_S64x32x8_o0_0_1_S64x32x1 : S64x32x8.Slices ![0, 0, 1] S64x32x1
  slices_S481x32x8_o0_0_2_S481x32x1 : S481x32x8.Slices ![0, 0, 2] S481x32x1
  slices_S64x32x8_o0_0_2_S64x32x1 : S64x32x8.Slices ![0, 0, 2] S64x32x1
  slices_S481x32x8_o0_0_3_S481x32x1 : S481x32x8.Slices ![0, 0, 3] S481x32x1
  slices_S64x32x8_o0_0_3_S64x32x1 : S64x32x8.Slices ![0, 0, 3] S64x32x1
  slices_S481x32x8_o0_0_4_S481x32x1 : S481x32x8.Slices ![0, 0, 4] S481x32x1
  slices_S64x32x8_o0_0_4_S64x32x1 : S64x32x8.Slices ![0, 0, 4] S64x32x1
  slices_S481x32x8_o0_0_5_S481x32x1 : S481x32x8.Slices ![0, 0, 5] S481x32x1
  slices_S64x32x8_o0_0_5_S64x32x1 : S64x32x8.Slices ![0, 0, 5] S64x32x1
  slices_S481x32x8_o0_0_6_S481x32x1 : S481x32x8.Slices ![0, 0, 6] S481x32x1
  slices_S64x32x8_o0_0_6_S64x32x1 : S64x32x8.Slices ![0, 0, 6] S64x32x1
  slices_S481x32x8_o0_0_7_S481x32x1 : S481x32x8.Slices ![0, 0, 7] S481x32x1
  slices_S64x32x8_o0_0_7_S64x32x1 : S64x32x8.Slices ![0, 0, 7] S64x32x1
  reduces_S481x64x32_S481x32 : S481x64x32.Reduces [1] S481x32
  inb_S1x481x32_S1x481x32_0_0_0 : ∀ a, (![0, 0, 0] : Fin 3 → Nat) a + S1x481x32.size a ≤ S1x481x32.size a
  h_S1x481x32 : 0 < S1x481x32.numel
  shapeCasts_S1x481x32_S481x32 : S1x481x32.ShapeCasts S481x32
  shapeCasts_S481x32_S1x481x32 : S481x32.ShapeCasts S1x481x32
  gather_S16x512x8_S481x32x1_S16x481x32x8_03_1_n_n_1_2_1618_wf : GatherDims.WF S16x512x8 S481x32x1 S16x481x32x8 [0, 3] [1] [] [1] [] 2 ![16, 1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x481x32x8.size a ≤ S16x481x32x8.size a
  hwx0_0 : ∀ i : grid0.Coords, EltTy.bits .f32 = 32 ∨ (Rect.block (s := S16x481x32x8) S1x481x32x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32x8.size a ≤ S64x32x8.size a
  hwx0_1 : ∀ i : grid0.Coords, EltTy.bits .f32 = 32 ∨ (Rect.block (s := S64x32x8) S64x32x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x481x32.size a ≤ S16x481x32.size a
  hwx0_2 : ∀ i : grid0.Coords, EltTy.bits .f32 = 32 ∨ (Rect.block (s := S16x481x32) S1x481x32.size (cc0_transform_2 i) (hinb0_2 i)).WholeWords (EltTy.packing .f32)

variable [Facts₀]

def gather_S16x512x8_S481x32x1_S16x481x32x8_03_1_n_n_1_2_1618 : GatherDims S16x512x8 S481x32x1 S16x481x32x8 where
  offsetDims := [0, 3]
  collapsedSliceDims := [1]
  operandBatchingDims := []
  startIndicesBatchingDims := []
  startIndexMap := [1]
  indexVectorDim := 2
  sliceSizes := ![16, 1, 8]
  wf := gather_S16x512x8_S481x32x1_S16x481x32x8_03_1_n_n_1_2_1618_wf

abbrev win0_0 : Pipeline.Window sig grid0 :=
  Pipeline.Window.ofSpec (Memref.whole main_v26) S1x481x32x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S64x32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x481x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x8 : Shape := ⟨3, ![16, 512, 8]⟩
abbrev S64x32x8 : Shape := ⟨3, ![64, 32, 8]⟩
abbrev S_ : Shape := ⟨0, ![]⟩
abbrev S16x8 : Shape := ⟨2, ![16, 8]⟩
abbrev S16x1x8 : Shape := ⟨3, ![16, 1, 8]⟩
abbrev S481 : Shape := ⟨1, ![481]⟩
abbrev S481x1 : Shape := ⟨2, ![481, 1]⟩
abbrev S32 : Shape := ⟨1, ![32]⟩
abbrev S1x32 : Shape := ⟨2, ![1, 32]⟩
abbrev S481x32 : Shape := ⟨2, ![481, 32]⟩
abbrev S481x32x1 : Shape := ⟨3, ![481, 32, 1]⟩
abbrev S16x481x32x8 : Shape := ⟨4, ![16, 481, 32, 8]⟩
abbrev S16x481x8x32 : Shape := ⟨4, ![16, 481, 8, 32]⟩
abbrev S64 : Shape := ⟨1, ![64]⟩
abbrev S64x1x1 : Shape := ⟨3, ![64, 1, 1]⟩
abbrev S16x481x1x32x8 : Shape := ⟨5, ![16, 481, 1, 32, 8]⟩
abbrev S1x1x64x32x8 : Shape := ⟨5, ![1, 1, 64, 32, 8]⟩
abbrev S16x481x64x32x8 : Shape := ⟨5, ![16, 481, 64, 32, 8]⟩
abbrev S16x481x64x32 : Shape := ⟨4, ![16, 481, 64, 32]⟩
abbrev S16x481x32 : Shape := ⟨3, ![16, 481, 32]⟩

abbrev nBuf : Space → Nat
  | .hbm => 106
  | .vmem => 0
  | .smem => 0
  | _ => 0

abbrev bufTy : (tb : Table) → Fin (tcTables nBuf tb) → BufTy
  | .hbm, ⟨0, _⟩ => ⟨S16x512x8, .f32⟩
  | .hbm, ⟨1, _⟩ => ⟨S64x32x8, .f32⟩
  | .hbm, ⟨2, _⟩ => ⟨S_, .f32⟩
  | .hbm, ⟨3, _⟩ => ⟨S16x8, .f32⟩
  | .hbm, ⟨4, _⟩ => ⟨S16x1x8, .f32⟩
  | .hbm, ⟨5, _⟩ => ⟨S_, .f32⟩
  | .hbm, ⟨6, _⟩ => ⟨S16x1x8, .f32⟩
  | .hbm, ⟨7, _⟩ => ⟨S16x1x8, .f32⟩
  | .hbm, ⟨8, _⟩ => ⟨S_, .i32⟩
  | .hbm, ⟨9, _⟩ => ⟨S_, .f32⟩
  | .hbm, ⟨10, _⟩ => ⟨S16x8, .f32⟩
  | .hbm, ⟨11, _⟩ => ⟨S16x1x8, .f32⟩
  | .hbm, ⟨12, _⟩ => ⟨S_, .f32⟩
  | .hbm, ⟨13, _⟩ => ⟨S16x1x8, .f32⟩
  | .hbm, ⟨14, _⟩ => ⟨S16x1x8, .f32⟩
  | .hbm, ⟨15, _⟩ => ⟨S16x512x8, .f32⟩
  | .hbm, ⟨16, _⟩ => ⟨S16x512x8, .f32⟩
  | .hbm, ⟨17, _⟩ => ⟨S16x512x8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x8, .f32⟩
  | .hbm, ⟨23, _⟩ => ⟨S16x1x8, .f32⟩
  | .hbm, ⟨24, _⟩ => ⟨S16x1x8, .f32⟩
  | .hbm, ⟨25, _⟩ => ⟨S16x1x8, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S16x1x8, .f32⟩
  | .hbm, ⟨31, _⟩ => ⟨S16x1x8, .f32⟩
  | .hbm, ⟨32, _⟩ => ⟨S16x1x8, .f32⟩
  | .hbm, ⟨33, _⟩ => ⟨S_, .f32⟩
  | .hbm, ⟨34, _⟩ => ⟨S16x1x8, .f32⟩
  | .hbm, ⟨35, _⟩ => ⟨S16x1x8, .f32⟩
  | .hbm, ⟨36, _⟩ => ⟨S16x512x8, .f32⟩
  | .hbm, ⟨37, _⟩ => ⟨S16x512x8, .f32⟩
  | .hbm, ⟨38, _⟩ => ⟨S16x512x8, .f32⟩
  | .hbm, ⟨39, _⟩ => ⟨S16x512x8, .f32⟩
  | .hbm, ⟨40, _⟩ => ⟨S481, .i32⟩
  | .hbm, ⟨41, _⟩ => ⟨S481x1, .i32⟩
  | .hbm, ⟨42, _⟩ => ⟨S32, .i32⟩
  | .hbm, ⟨43, _⟩ => ⟨S1x32, .i32⟩
  | .hbm, ⟨44, _⟩ => ⟨S481x32, .i32⟩
  | .hbm, ⟨45, _⟩ => ⟨S481x32, .i32⟩
  | .hbm, ⟨46, _⟩ => ⟨S481x32, .i32⟩
  | .hbm, ⟨47, _⟩ => ⟨S_, .i32⟩
  | .hbm, ⟨48, _⟩ => ⟨S481x32, .i32⟩
  | .hbm, ⟨49, _⟩ => ⟨S481x32, .i1⟩
  | .hbm, ⟨50, _⟩ => ⟨S_, .i32⟩
  | .hbm, ⟨51, _⟩ => ⟨S481x32, .i32⟩
  | .hbm, ⟨52, _⟩ => ⟨S481x32, .i32⟩
  | .hbm, ⟨53, _⟩ => ⟨S481x32, .i32⟩
  | .hbm, ⟨54, _⟩ => ⟨S481x32x1, .i32⟩
  | .hbm, ⟨55, _⟩ => ⟨S16x481x32x8, .f32⟩
  | .hbm, ⟨56, _⟩ => ⟨S16x481x8x32, .f32⟩
  | .hbm, ⟨57, _⟩ => ⟨S16x481x32x8, .f32⟩
  | .hbm, ⟨58, _⟩ => ⟨S_, .f32⟩
  | .hbm, ⟨59, _⟩ => ⟨S64, .f32⟩
  | .hbm, ⟨60, _⟩ => ⟨S64x1x1, .f32⟩
  | .hbm, ⟨61, _⟩ => ⟨S_, .f32⟩
  | .hbm, ⟨62, _⟩ => ⟨S64x1x1, .f32⟩
  | .hbm, ⟨63, _⟩ => ⟨S64x1x1, .f32⟩
  | .hbm, ⟨64, _⟩ => ⟨S_, .i32⟩
  | .hbm, ⟨65, _⟩ => ⟨S_, .f32⟩
  | .hbm, ⟨66, _⟩ => ⟨S64, .f32⟩
  | .hbm, ⟨67, _⟩ => ⟨S64x1x1, .f32⟩
  | .hbm, ⟨68, _⟩ => ⟨S_, .f32⟩
  | .hbm, ⟨69, _⟩ => ⟨S64x1x1, .f32⟩
  | .hbm, ⟨70, _⟩ => ⟨S64x1x1, .f32⟩
  | .hbm, ⟨71, _⟩ => ⟨S64x32x8, .f32⟩
  | .hbm, ⟨72, _⟩ => ⟨S64x32x8, .f32⟩
  | .hbm, ⟨73, _⟩ => ⟨S64x32x8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S64, .f32⟩
  | .hbm, ⟨79, _⟩ => ⟨S64x1x1, .f32⟩
  | .hbm, ⟨80, _⟩ => ⟨S64x1x1, .f32⟩
  | .hbm, ⟨81, _⟩ => ⟨S64x1x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S64x1x1, .f32⟩
  | .hbm, ⟨87, _⟩ => ⟨S64x1x1, .f32⟩
  | .hbm, ⟨88, _⟩ => ⟨S64x1x1, .f32⟩
  | .hbm, ⟨89, _⟩ => ⟨S_, .f32⟩
  | .hbm, ⟨90, _⟩ => ⟨S64x1x1, .f32⟩
  | .hbm, ⟨91, _⟩ => ⟨S64x1x1, .f32⟩
  | .hbm, ⟨92, _⟩ => ⟨S64x32x8, .f32⟩
  | .hbm, ⟨93, _⟩ => ⟨S64x32x8, .f32⟩
  | .hbm, ⟨94, _⟩ => ⟨S64x32x8, .f32⟩
  | .hbm, ⟨95, _⟩ => ⟨S64x32x8, .f32⟩
  | .hbm, ⟨96, _⟩ => ⟨S16x481x1x32x8, .f32⟩
  | .hbm, ⟨97, _⟩ => ⟨S1x1x64x32x8, .f32⟩
  | .hbm, ⟨98, _⟩ => ⟨S16x481x64x32x8, .f32⟩
  | .hbm, ⟨99, _⟩ => ⟨S16x481x64x32x8, .f32⟩
  | .hbm, ⟨100, _⟩ => ⟨S16x481x64x32x8, .f32⟩
  | .hbm, ⟨101, _⟩ => ⟨S16x481x64x32x8, .f32⟩
  | .hbm, ⟨102, _⟩ => ⟨S_, .f32⟩
  | .hbm, ⟨103, _⟩ => ⟨S16x481x64x32, .f32⟩
  | .hbm, ⟨104, _⟩ => ⟨S_, .f32⟩
  | .hbm, ⟨105, _⟩ => ⟨S16x481x32, .f32⟩
  | _, _ => ⟨S16x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_cst_0 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_cst_1 : Ref sig .tc := ⟨.hbm, 75, rfl⟩
abbrev main_call1_call0_v8 : Ref sig .tc := ⟨.hbm, 76, rfl⟩
abbrev main_call1_call0_cst_2 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_call0_v12 : Ref sig .tc := ⟨.hbm, 81, rfl⟩
abbrev main_call1_call0_cst_3 : Ref sig .tc := ⟨.hbm, 82, rfl⟩
abbrev main_call1_call0_v13 : Ref sig .tc := ⟨.hbm, 83, rfl⟩
abbrev main_call1_call0_cst_4 : Ref sig .tc := ⟨.hbm, 84, rfl⟩
abbrev main_call1_call0_call0_v0 : Ref sig .tc := ⟨.hbm, 85, rfl⟩
abbrev main_call1_call0_call0_v1 : Ref sig .tc := ⟨.hbm, 86, rfl⟩
abbrev main_call1_v0 : Ref sig .tc := ⟨.hbm, 87, rfl⟩
abbrev main_v31 : Ref sig .tc := ⟨.hbm, 88, rfl⟩
abbrev main_cst_7 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_8 : Ref sig .tc := ⟨.hbm, 102, rfl⟩
abbrev main_v44 : Ref sig .tc := ⟨.hbm, 103, rfl⟩
abbrev main_cst_9 : Ref sig .tc := ⟨.hbm, 104, rfl⟩
abbrev main_v45 : Ref sig .tc := ⟨.hbm, 105, rfl⟩

abbrev nD : Nat := 1
abbrev τ : Topo := Topo.v7x

variable {F : FTy → Type} [FloatOps F]

class Facts₀ : Prop where
  reducesTo_S16x512x8_S16x8_d1 : S16x512x8.ReducesTo [1] S16x8
  h_S_ : 0 < S_.numel
  bcast_S16x8_S16x1x8_0_2 : S16x8.BroadcastsInDim S16x1x8 (![0, 2] : Fin 2 → Fin S16x1x8.rank)
  bcast_S_S16x1x8 : S_.BroadcastsInDim S16x1x8 (![] : Fin 0 → Fin S16x1x8.rank)
  bcast_S16x1x8_S16x512x8_0_1_2 : S16x1x8.BroadcastsInDim S16x512x8 (![0, 1, 2] : Fin 3 → Fin S16x512x8.rank)
  bcast_S481_S481x1_0 : S481.BroadcastsInDim S481x1 (![0] : Fin 1 → Fin S481x1.rank)
  bcast_S32_S1x32_1 : S32.BroadcastsInDim S1x32 (![1] : Fin 1 → Fin S1x32.rank)
  bcast_S481x1_S481x32_0_1 : S481x1.BroadcastsInDim S481x32 (![0, 1] : Fin 2 → Fin S481x32.rank)
  bcast_S1x32_S481x32_0_1 : S1x32.BroadcastsInDim S481x32 (![0, 1] : Fin 2 → Fin S481x32.rank)
  bcast_S_S481x32 : S_.BroadcastsInDim S481x32 (![] : Fin 0 → Fin S481x32.rank)
  bcast_S481x32_S481x32x1_0_1 : S481x32.BroadcastsInDim S481x32x1 (![0, 1] : Fin 2 → Fin S481x32x1.rank)
  transposes_S16x481x32x8_S16x481x8x32_0_1_3_2 : S16x481x32x8.Transposes [0, 1, 3, 2] S16x481x8x32
  shapeCasts_S16x481x8x32_S16x481x32x8 : S16x481x8x32.ShapeCasts S16x481x32x8
  reducesTo_S64x32x8_S64_d1_2 : S64x32x8.ReducesTo [1, 2] S64
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x32x8_0_1_2 : S64x1x1.BroadcastsInDim S64x32x8 (![0, 1, 2] : Fin 3 → Fin S64x32x8.rank)
  bcast_S16x481x32x8_S16x481x1x32x8_0_1_3_4 : S16x481x32x8.BroadcastsInDim S16x481x1x32x8 (![0, 1, 3, 4] : Fin 4 → Fin S16x481x1x32x8.rank)
  bcast_S64x32x8_S1x1x64x32x8_2_3_4 : S64x32x8.BroadcastsInDim S1x1x64x32x8 (![2, 3, 4] : Fin 3 → Fin S1x1x64x32x8.rank)
  bcast_S16x481x1x32x8_S16x481x64x32x8_0_1_2_3_4 : S16x481x1x32x8.BroadcastsInDim S16x481x64x32x8 (![0, 1, 2, 3, 4] : Fin 5 → Fin S16x481x64x32x8.rank)
  bcast_S1x1x64x32x8_S16x481x64x32x8_0_1_2_3_4 : S1x1x64x32x8.BroadcastsInDim S16x481x64x32x8 (![0, 1, 2, 3, 4] : Fin 5 → Fin S16x481x64x32x8.rank)
  reducesTo_S16x481x64x32x8_S16x481x64x32_d4 : S16x481x64x32x8.ReducesTo [4] S16x481x64x32
  reducesTo_S16x481x64x32_S16x481x32_d2 : S16x481x64x32.ReducesTo [2] S16x481x32
  gather_S16x512x8_S481x32x1_S16x481x32x8_03_1_n_n_1_2_1618_wf : GatherDims.WF S16x512x8 S481x32x1 S16x481x32x8 [0, 3] [1] [] [1] [] 2 ![16, 1, 8]

variable [Facts₀]

def gather_S16x512x8_S481x32x1_S16x481x32x8_03_1_n_n_1_2_1618 : GatherDims S16x512x8 S481x32x1 S16x481x32x8 where
  offsetDims := [0, 3]
  collapsedSliceDims := [1]
  operandBatchingDims := []
  startIndicesBatchingDims := []
  startIndexMap := [1]
  indexVectorDim := 2
  sliceSizes := ![16, 1, 8]
  wf := gather_S16x512x8_S481x32x1_S16x481x32x8_03_1_n_n_1_2_1618_wf

class Facts : Prop extends Facts₀ where

variable [Facts]
-- ==== Proof.Spec.lean ====
/-
  The two programs compute one function of the arguments.  This module states its pieces, as pure functions over the
  literal shapes, at any float instance `F` (the certificate reads them at the extended reals):

  * `xnorm x`    : each series `x[b, :, c]` minus its mean over time, divided by (its standard deviation + ε);
  * `patches x`  : the sliding windows of `xnorm x`, row `idx[t, k] = t + k` of the time axis gathered for every
                    `(t, k)`, the last two axes transposed and the result re-read row-major as `[16, 481, 32, 8]`;
  * `kern w`     : each shapelet `w[s, :, :]` minus its mean, divided by (its standard deviation + ε);
  * `distMin P K`: at `(b, t, k)` the minimum over the 64 shapelets `s` of `∑_c (P[b,t,k,c] - K[s,k,c])²`.

  The variance is the mean of squared deviations, divided by `n - 0`, chosen by a select whose condition `n - 0 > 0`
  is a constant; the other branch is a constant that is never taken.
-/
import proofs.«164180_j14310831030969_1_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts] {F : FTy → Type} [FloatOps F]

/-! ## The series, normalized over time -/

/-- The scalar constant of word `w`. -/
abbrev cst (w : BitVec 32) : FVec F S_ .f32 := constant (F := F) S_ .f32 w

/-- The mean over time: the sum over axis 1, divided by 512. -/
def meanX (x : FVec F S16x512x8 .f32) : FVec F S16x1x8 .f32 :=
  Host.divf
    (broadcastInDim S16x1x8 ![0, 2] bcast_S16x8_S16x1x8_0_2
      (Host.reduceAdd x (cst 0x00000000#32) reducesTo_S16x512x8_S16x8_d1 h_S_))
    (broadcastInDim S16x1x8 ![] bcast_S_S16x1x8 (cst 0x44000000#32))

/-- The deviation from the mean. -/
def devX (x : FVec F S16x512x8 .f32) : FVec F S16x512x8 .f32 :=
  subf x (broadcastInDim S16x512x8 ![0, 1, 2] bcast_S16x1x8_S16x512x8_0_1_2 (meanX x))

/-- The divisor of the variance: `512 - 0`, the zero an integer converted. -/
def cntX : FVec F S_ .f32 :=
  subf (cst 0x44000000#32) (sitofp (F := F) .f32 (constantI S_ 32 0#32))

/-- The variance over time, as the program selects it. -/
def varX (x : FVec F S16x512x8 .f32) : FVec F S16x1x8 .f32 :=
  select (broadcastInDim S16x1x8 ![] bcast_S_S16x1x8 (cmpf .ogt (cntX (F := F)) (cst 0x00000000#32)))
    (Host.divf
      (broadcastInDim S16x1x8 ![0, 2] bcast_S16x8_S16x1x8_0_2
        (Host.reduceAdd (mulf (devX x) (devX x)) (cst 0x00000000#32) reducesTo_S16x512x8_S16x8_d1 h_S_))
      (broadcastInDim S16x1x8 ![] bcast_S_S16x1x8 cntX))
    (broadcastInDim S16x1x8 ![] bcast_S_S16x1x8 (id (cst 0x7FC00000#32)))

/-- The standard deviation plus ε. -/
def stdX (x : FVec F S16x512x8 .f32) : FVec F S16x1x8 .f32 :=
  addf (Host.sqrt (varX x)) (broadcastInDim S16x1x8 ![] bcast_S_S16x1x8 (cst 0x322BCC77#32))

/-- The normalized series. -/
def xnorm (x : FVec F S16x512x8 .f32) : FVec F S16x512x8 .f32 :=
  Host.divf (devX x) (broadcastInDim S16x512x8 ![0, 1, 2] bcast_S16x1x8_S16x512x8_0_1_2 (stdX x))

/-! ## The windows -/

/-- `t + k`, as 32-bit words over `[481, 32]`. -/
def sumI : IVec S481x32 32 :=
  addi
    (broadcastInDim S481x32 ![0, 1] bcast_S481x1_S481x32_0_1 (broadcastInDim S481x1 ![0] bcast_S481_S481x1_0 (iotaInDim S481 32 0)))
    (broadcastInDim S481x32 ![0, 1] bcast_S1x32_S481x32_0_1 (broadcastInDim S1x32 ![1] bcast_S32_S1x32_1 (iotaInDim S32 32 0)))

/-- The start indices of the gather: `t + k`, wrapped by 512 where negative (never), with a trailing unit axis. -/
def idxI : IVec S481x32x1 32 :=
  broadcastInDim S481x32x1 ![0, 1] bcast_S481x32_S481x32x1_0_1
    (select (cmpi .slt sumI (broadcastInDim S481x32 ![] bcast_S_S481x32 (constantI S_ 32 0#32)))
      (addi sumI (broadcastInDim S481x32 ![] bcast_S_S481x32 (constantI S_ 32 512#32)))
      sumI)

/-- The windows of the normalized series, transposed and re-read row-major. -/
def patches (x : FVec F S16x512x8 .f32) : FVec F S16x481x32x8 .f32 :=
  shapeCast S16x481x32x8
    (transpose S16x481x8x32 [0, 1, 3, 2]
      (Host.gather gather_S16x512x8_S481x32x1_S16x481x32x8_03_1_n_n_1_2_1618 (xnorm x) idxI)
      transposes_S16x481x32x8_S16x481x8x32_0_1_3_2)
    shapeCasts_S16x481x8x32_S16x481x32x8

/-! ## The shapelets, normalized -/

/-- The mean of a shapelet: the sum over axes 1 and 2, divided by 256. -/
def meanK (w : FVec F S64x32x8 .f32) : FVec F S64x1x1 .f32 :=
  Host.divf
    (broadcastInDim S64x1x1 ![0] bcast_S64_S64x1x1_0
      (Host.reduceAdd w (cst 0x00000000#32) reducesTo_S64x32x8_S64_d1_2 h_S_))
    (broadcastInDim S64x1x1 ![] bcast_S_S64x1x1 (cst 0x43800000#32))

/-- The deviation from the mean. -/
def devK (w : FVec F S64x32x8 .f32) : FVec F S64x32x8 .f32 :=
  subf w (broadcastInDim S64x32x8 ![0, 1, 2] bcast_S64x1x1_S64x32x8_0_1_2 (meanK w))

/-- The divisor of the variance: `256 - 0`. -/
def cntK : FVec F S_ .f32 :=
  subf (cst 0x43800000#32) (sitofp (F := F) .f32 (constantI S_ 32 0#32))

/-- The variance of a shapelet, as the program selects it. -/
def varK (w : FVec F S64x32x8 .f32) : FVec F S64x1x1 .f32 :=
  select (broadcastInDim S64x1x1 ![] bcast_S_S64x1x1 (cmpf .ogt (cntK (F := F)) (cst 0x00000000#32)))
    (Host.divf
      (broadcastInDim S64x1x1 ![0] bcast_S64_S64x1x1_0
        (Host.reduceAdd (mulf (devK w) (devK w)) (cst 0x00000000#32) reducesTo_S64x32x8_S64_d1_2 h_S_))
      (broadcastInDim S64x1x1 ![] bcast_S_S64x1x1 cntK))
    (broadcastInDim S64x1x1 ![] bcast_S_S64x1x1 (id (cst 0x7FC00000#32)))

/-- The standard deviation plus ε. -/
def stdK (w : FVec F S64x32x8 .f32) : FVec F S64x1x1 .f32 :=
  addf (Host.sqrt (varK w)) (broadcastInDim S64x1x1 ![] bcast_S_S64x1x1 (cst 0x322BCC77#32))

/-- The normalized shapelets. -/
def kern (w : FVec F S64x32x8 .f32) : FVec F S64x32x8 .f32 :=
  Host.divf (devK w) (broadcastInDim S64x32x8 ![0, 1, 2] bcast_S64x1x1_S64x32x8_0_1_2 (stdK w))

/-! ## Squared distance, summed over channels, minimized over shapelets -/

/-- `P[b,t,k,c] - K[s,k,c]` over `[16, 481, 64, 32, 8]`. -/
def diff (P : FVec F S16x481x32x8 .f32) (K : FVec F S64x32x8 .f32) : FVec F S16x481x64x32x8 .f32 :=
  subf
    (broadcastInDim S16x481x64x32x8 ![0, 1, 2, 3, 4] bcast_S16x481x1x32x8_S16x481x64x32x8_0_1_2_3_4
      (broadcastInDim S16x481x1x32x8 ![0, 1, 3, 4] bcast_S16x481x32x8_S16x481x1x32x8_0_1_3_4 P))
    (broadcastInDim S16x481x64x32x8 ![0, 1, 2, 3, 4] bcast_S1x1x64x32x8_S16x481x64x32x8_0_1_2_3_4
      (broadcastInDim S1x1x64x32x8 ![2, 3, 4] bcast_S64x32x8_S1x1x64x32x8_2_3_4 K))

/-- The sum over channels of the squared difference, then the minimum over shapelets from `+∞`. -/
def distMin (P : FVec F S16x481x32x8 .f32) (K : FVec F S64x32x8 .f32) : FVec F S16x481x32 .f32 :=
  Host.reduce (FloatOps.minimumf : F .f32 → F .f32 → F .f32)
    (Host.reduceAdd (mulf (diff P K) (diff P K)) (cst 0x00000000#32) reducesTo_S16x481x64x32x8_S16x481x64x32_d4 h_S_)
    (cst 0x7F800000#32) reducesTo_S16x481x64x32_S16x481x32_d2 h_S_

/-- The result both programs compute. -/
def result (x : FVec F S16x512x8 .f32) (w : FVec F S64x32x8 .f32) : FVec F S16x481x32 .f32 :=
  distMin (patches x) (kern w)

end Cert.Spec

end
-- ==== Proof.KernelGlue.lean ====
/-
  What the kernel's region finds in its two input arrays: the host operations before the region leave the windows of
  the normalized series in the first and the normalized shapelets in the second — the same pure functions of the
  arguments that the reference computes (the two programs' host operations are the same operations).
-/
import proofs.«164180_j14310831030969_1_alg».proof.Proof.Spec
import proofs.«164180_j14310831030969_1_alg».proof.Proof.Gen.KernelIdeal.Frame
import proofs.«164180_j14310831030969_1_alg».proof.Proof.Gen.ReferenceIdeal
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 1000000 in
/-- The region's first input array holds the windows of the normalized series. -/
theorem V_patches (c : Dev nD) :
    V m c main_v26 = Cert.Spec.patches (F := F) (m ((c : Thread nD τ).loc main_arg0)) := by
  dsimp only [Gen.V]
  simp only [hostOps0, hostOps0_1, hostOps0_2, hostOps0_3, hostOps0_4, List.flatten_cons, List.flatten_nil, List.append_nil,
    List.cons_append, List.nil_append]
  after_results_simp
  simp only [TRef.ofBuf, TRef.toBuf, cast_eq]
  rfl

set_option maxHeartbeats 1000000 in
/-- The region's second input array holds the normalized shapelets. -/
theorem V_kern (c : Dev nD) :
    V m c main_v37 = Cert.Spec.kern (F := F) (m ((c : Thread nD τ).loc main_arg1)) := by
  dsimp only [Gen.V]
  simp only [hostOps0, hostOps0_1, hostOps0_2, hostOps0_3, hostOps0_4, List.flatten_cons, List.flatten_nil, List.append_nil,
    List.cons_append, List.nil_append]
  after_results_simp
  simp only [TRef.ofBuf, TRef.toBuf, cast_eq]
  rfl

end Cert.KernelIdeal.Glue

end
-- ==== Proof.Forms.lean ====
/-
  The two programs' results at one output index, as plain extended-real expressions over coordinates.

  `refAt P K b t k`: the minimum over shapelets `s`, from the word of `+∞`, of
  `0 + ∑_c (P[b,t,k,c] - K[s,k,c]) · (P[b,t,k,c] - K[s,k,c])` — squared distance summed over channels.

  `kerAt p K t k`: the same minimum of the expanded square
  `(∑_c p[0,t,k,c]² - 2 · cross) + ∑_c K[s,k,c]²`, the cross term accumulated channel by channel from zero,
  `((0 + p₀K₀) + p₁K₁) + … + p₇K₇`, over one batch's block `p` of the patches.

  The float words (zero, two, `+∞`) are left as words here; the law that joins the two forms evaluates them.
-/
import Idealize.ShloMosaic.Lib.ValueIdx
import Idealize.ShloMosaic.PureOps.Ideal

noncomputable section

namespace Cert.Spec

open Idealize.ShloMosaic Idealize.ShloMosaic.ValueIdx

/-- The word of zero, of two, of `+∞`, read at the extended reals. -/
abbrev wZero : EReal := Ideal.ofBits .f32 0x00000000#32
abbrev wTwo : EReal := Ideal.ofBits .f32 0x40000000#32
abbrev wInf : EReal := Ideal.ofBits .f32 0x7F800000#32

/-- Squared distance summed over channels, minimized over shapelets: the reference's arrangement. -/
def refAt (P : (⟨4, ![16, 481, 32, 8]⟩ : Shape).Idx → EReal) (K : (⟨3, ![64, 32, 8]⟩ : Shape).Idx → EReal)
    (b : Fin 16) (t : Fin 481) (k : Fin 32) : EReal :=
  (Finset.univ : Finset (Fin 64)).fold min wInf fun s =>
    wZero + ∑ c : Fin 8, (P (ix4 b t k c) - K (ix3 s k c)) * (P (ix4 b t k c) - K (ix3 s k c))

/-- The cross term `∑_c p[0,t,k,c] · K[s,k,c]`, accumulated channel by channel from zero. -/
def crossAt (p : (⟨4, ![1, 481, 32, 8]⟩ : Shape).Idx → EReal) (K : (⟨3, ![64, 32, 8]⟩ : Shape).Idx → EReal)
    (t : Fin 481) (s : Fin 64) (k : Fin 32) : EReal :=
  (((((((wZero + p (ix4 0 t k 0) * K (ix3 s k 0)) + p (ix4 0 t k 1) * K (ix3 s k 1)) + p (ix4 0 t k 2) * K (ix3 s k 2))
    + p (ix4 0 t k 3) * K (ix3 s k 3)) + p (ix4 0 t k 4) * K (ix3 s k 4)) + p (ix4 0 t k 5) * K (ix3 s k 5))
    + p (ix4 0 t k 6) * K (ix3 s k 6)) + p (ix4 0 t k 7) * K (ix3 s k 7)

/-- The expanded square, minimized over shapelets: the kernel's arrangement, over one batch's block. -/
def kerAt (p : (⟨4, ![1, 481, 32, 8]⟩ : Shape).Idx → EReal) (K : (⟨3, ![64, 32, 8]⟩ : Shape).Idx → EReal)
    (t : Fin 481) (k : Fin 32) : EReal :=
  (Finset.univ : Finset (Fin 64)).fold min wInf fun s =>
    ((∑ c : Fin 8, p (ix4 0 t k c) * p (ix4 0 t k c)) - wTwo * crossAt p K t s k)
      + ∑ c : Fin 8, K (ix3 s k c) * K (ix3 s k c)

end Cert.Spec

end
-- ==== Proof.KernelBody.lean ====
/-
  The kernel body's stored value read at one index of the output block.

  At `(0, t, k)` the body stores the minimum over the 64 shapelets `s`, from the word of `+∞`, of
  `(∑_c p[0,t,k,c]² − 2 · cross) + ∑_c K[s,k,c]²`, where `cross` is the eight-term accumulation
  `((0 + p₀K₀) + p₁K₁) + … + p₇K₇` over the channels, each term the product of channel `c` of the block (broadcast
  over shapelets) and channel `c` of the shapelets (broadcast over rows). Each non-pointwise operation is read at an
  index by one lemma over variables of the literal shapes: the unit-axis shape casts, the two broadcasts, the channel
  slice, the two sums over channels and the minimum over shapelets; the pointwise operations open definitionally.
  The float words (zero, two, `+∞`) stay words.
-/
import proofs.«164180_j14310831030969_1_alg».proof.Proof.Forms
import proofs.«164180_j14310831030969_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Body

open Idealize.ShloMosaic Idealize.ShloMosaic.ValueIdx Cert.KernelIdeal Cert.KernelIdeal.Gen

/-! ## Reductions over one axis read at an index -/

/-- A minimum reduction over one axis, read at a reduced index: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The source index over `(t, k)` with shapelet coordinate `s` inserted on axis 1 is `(t, s, k)`. -/
theorem lift_mid (h : S481x64x32.Reduces [1] S481x32) (t : Fin 481) (k : Fin 32) (s : Fin 64) :
    h.lift (ix2 t k) s = ix3 t s k := by
  funext c
  refine Fin.ext ?_
  match c with
  | ⟨0, _⟩ => rfl
  | ⟨1, _⟩ => rfl
  | ⟨2, _⟩ => rfl

/-- The source index over `(t, k)` with channel `c` inserted on the last axis is `(t, k, c)`. -/
theorem lift_last_P (h : S481x32x8.Reduces [2] S481x32) (t : Fin 481) (k : Fin 32) (c : Fin 8) :
    h.lift (ix2 t k) c = ix3 t k c := by
  funext d
  refine Fin.ext ?_
  match d with
  | ⟨0, _⟩ => rfl
  | ⟨1, _⟩ => rfl
  | ⟨2, _⟩ => rfl

/-- The same over the shapelets' array. -/
theorem lift_last_K (h : S64x32x8.Reduces [2] S64x32) (s : Fin 64) (k : Fin 32) (c : Fin 8) :
    h.lift (ix2 s k) c = ix3 s k c := by
  funext d
  refine Fin.ext ?_
  match d with
  | ⟨0, _⟩ => rfl
  | ⟨1, _⟩ => rfl
  | ⟨2, _⟩ => rfl

/-! ## Layout chains read at an index -/

section Layout
variable {α : Type}

/-- A `[481, 32]` array given a unit middle axis and broadcast over the 64 shapelets reads, at `(t, s, k)`, the
    array at `(t, k)`. -/
theorem bcast_rows (x : S481x32.Idx → α) (t : Fin 481) (s : Fin 64) (k : Fin 32) :
    broadcastTo S481x64x32 (shapeCast S481x1x32 x shapeCasts_S481x32_S481x1x32) broadcasts_S481x1x32_S481x64x32
      (ix3 t s k) = x (ix2 t k) := by
  refine (broadcastTo_apply _ _ (ix3 t s k) (ix3 t (0 : Fin 1) k) (fun a => ?_)).trans ?_
  · match a with
    | ⟨0, _⟩ => rfl
    | ⟨1, _⟩ => rfl
    | ⟨2, _⟩ => rfl
  · refine shapeCast_apply x _ (ix3 t (0 : Fin 1) k) (ix2 t k) ?_
    rw [Shape.rowMajor_val_two, Shape.rowMajor_val_three]
    show t.val * 32 + k.val = (t.val * 1 + 0) * 32 + k.val
    omega

/-- A `[64, 32]` array given a leading unit axis and broadcast over the 481 rows reads, at `(t, s, k)`, the array
    at `(s, k)`. -/
theorem bcast_cols (x : S64x32.Idx → α) (t : Fin 481) (s : Fin 64) (k : Fin 32) :
    broadcastTo S481x64x32 (shapeCast S1x64x32 x shapeCasts_S64x32_S1x64x32) broadcasts_S1x64x32_S481x64x32
      (ix3 t s k) = x (ix2 s k) := by
  refine (broadcastTo_apply _ _ (ix3 t s k) (ix3 (0 : Fin 1) s k) (fun a => ?_)).trans ?_
  · match a with
    | ⟨0, _⟩ => rfl
    | ⟨1, _⟩ => rfl
    | ⟨2, _⟩ => rfl
  · exact shapeCast_ab_1ab_apply x _ (0 : Fin 1) s k

/-- Channel `n` of a `[481, 32, 8]` array, cut out as a `[481, 32, 1]` slice and its unit axis dropped, reads at
    `(t, k)` the array at `(t, k, n)`. -/
theorem chan_P (x : S481x32x8.Idx → α) (n : Nat) (hn : n < 8) (h : S481x32x8.Slices ![0, 0, n] S481x32x1)
    (t : Fin 481) (k : Fin 32) :
    shapeCast S481x32 (extractStridedSlice S481x32x1 ![0, 0, n] x h) shapeCasts_S481x32x1_S481x32 (ix2 t k)
      = x (ix3 t k ⟨n, hn⟩) := by
  refine (shapeCast_apply _ _ (ix2 t k) (ix3 t k (0 : Fin 1)) ?_).trans ?_
  · rw [Shape.rowMajor_val_two, Shape.rowMajor_val_three]
    show (t.val * 32 + k.val) * 1 + 0 = t.val * 32 + k.val
    omega
  · refine extractStridedSlice_apply _ x h (ix3 t k (0 : Fin 1)) (ix3 t k ⟨n, hn⟩) (fun a => ?_)
    match a with
    | ⟨0, _⟩ => exact (Nat.zero_add _).symm
    | ⟨1, _⟩ => exact (Nat.zero_add _).symm
    | ⟨2, _⟩ => rfl

/-- The same over the shapelets' `[64, 32, 8]` array. -/
theorem chan_K (x : S64x32x8.Idx → α) (n : Nat) (hn : n < 8) (h : S64x32x8.Slices ![0, 0, n] S64x32x1)
    (s : Fin 64) (k : Fin 32) :
    shapeCast S64x32 (extractStridedSlice S64x32x1 ![0, 0, n] x h) shapeCasts_S64x32x1_S64x32 (ix2 s k)
      = x (ix3 s k ⟨n, hn⟩) := by
  refine (shapeCast_apply _ _ (ix2 s k) (ix3 s k (0 : Fin 1)) ?_).trans ?_
  · rw [Shape.rowMajor_val_two, Shape.rowMajor_val_three]
    show (s.val * 32 + k.val) * 1 + 0 = s.val * 32 + k.val
    omega
  · refine extractStridedSlice_apply _ x h (ix3 s k (0 : Fin 1)) (ix3 s k ⟨n, hn⟩) (fun a => ?_)
    match a with
    | ⟨0, _⟩ => exact (Nat.zero_add _).symm
    | ⟨1, _⟩ => exact (Nat.zero_add _).symm
    | ⟨2, _⟩ => rfl

end Layout

/-! ## The three reductions at the literal shapes -/

/-- The minimum over the 64 shapelets (axis 1) from the word of `+∞`, at `(t, k)`. -/
theorem min_shapelets (src : FVec Ideal S481x64x32 .f32) (t : Fin 481) (k : Fin 32) :
    multiReduction .minimumf [1] S481x32 src 0x7F800000#32 reduces_S481x64x32_S481x32 (.inl rfl) rfl (ix2 t k)
      = (Finset.univ : Finset (Fin 64)).fold min Cert.Spec.wInf fun s => src (ix3 t s k) := by
  refine (multiReduction_minimumf_single src 0x7F800000#32 reduces_S481x64x32_S481x32 (.inl rfl) rfl (ix2 t k)).trans ?_
  exact Finset.fold_congr fun s _ => congrArg src (lift_mid _ t k s)

/-- The sum over the 8 channels (axis 2) of the block, at `(t, k)`. -/
theorem sum_chan_P (src : FVec Ideal S481x32x8 .f32) (t : Fin 481) (k : Fin 32) :
    multiReduction .add [2] S481x32 src 0x00000000#32 reduces_S481x32x8_S481x32 (.inl rfl) rfl (ix2 t k)
      = ∑ c : Fin 8, src (ix3 t k c) := by
  refine (Ideal.multiReduction_add_single src 0x00000000#32 reduces_S481x32x8_S481x32 (.inl rfl) rfl (ix2 t k)).trans ?_
  exact Finset.sum_congr rfl fun c _ => congrArg src (lift_last_P _ t k c)

/-- The sum over the 8 channels (axis 2) of the shapelets, at `(s, k)`. -/
theorem sum_chan_K (src : FVec Ideal S64x32x8 .f32) (s : Fin 64) (k : Fin 32) :
    multiReduction .add [2] S64x32 src 0x00000000#32 reduces_S64x32x8_S64x32 (.inl rfl) rfl (ix2 s k)
      = ∑ c : Fin 8, src (ix3 s k c) := by
  refine (Ideal.multiReduction_add_single src 0x00000000#32 reduces_S64x32x8_S64x32 (.inl rfl) rfl (ix2 s k)).trans ?_
  exact Finset.sum_congr rfl fun c _ => congrArg src (lift_last_K _ s k c)

/-! ## One accumulation step, and the payloads at an index -/

/-- Channel `n`'s product of the two broadcast slices at `(t, s, k)`. -/
theorem step_at (v1 : FVec Ideal S481x32x8 .f32) (v3 : FVec Ideal S64x32x8 .f32) (n : Nat) (hn : n < 8)
    (h1 : S481x32x8.Slices ![0, 0, n] S481x32x1) (h3 : S64x32x8.Slices ![0, 0, n] S64x32x1)
    (t : Fin 481) (s : Fin 64) (k : Fin 32) :
    mulf
      (broadcastTo S481x64x32 (shapeCast S481x1x32 (shapeCast S481x32 (extractStridedSlice S481x32x1 ![0, 0, n] v1 h1)
        shapeCasts_S481x32x1_S481x32) shapeCasts_S481x32_S481x1x32) broadcasts_S481x1x32_S481x64x32)
      (broadcastTo S481x64x32 (shapeCast S1x64x32 (shapeCast S64x32 (extractStridedSlice S64x32x1 ![0, 0, n] v3 h3)
        shapeCasts_S64x32x1_S64x32) shapeCasts_S64x32_S1x64x32) broadcasts_S1x64x32_S481x64x32)
      (ix3 t s k)
    = v1 (ix3 t k ⟨n, hn⟩) * v3 (ix3 s k ⟨n, hn⟩) := by
  rw [mulf_apply, bcast_rows, bcast_cols, chan_P _ n hn, chan_K _ n hn]

/-- The block with its leading unit axis dropped, at `(t, k, c)`. -/
theorem pay2_at (P0 : Vec Ideal S1x481x32x8 .f32) (t : Fin 481) (k : Fin 32) (c : Fin 8) :
    k0_pay2 P0 (ix3 t k c) = P0 (ix4 0 t k c) :=
  shapeCast_1abc_abc_apply P0 shapeCasts_S1x481x32x8_S481x32x8 t k c

/-- The shapelets under the identity cast. -/
theorem pay3_eq (P1 : Vec Ideal S64x32x8 .f32) : k0_pay3 P1 = P1 :=
  shapeCast_self P1 shapeCasts_S64x32x8_S64x32x8

/-- The block's squares summed over channels, at `(t, k)`. -/
theorem pay4_at (P0 : Vec Ideal S1x481x32x8 .f32) (t : Fin 481) (k : Fin 32) :
    k0_pay4 P0 (ix2 t k) = ∑ c : Fin 8, P0 (ix4 0 t k c) * P0 (ix4 0 t k c) := by
  unfold k0_pay4
  refine (sum_chan_P (mulf (k0_pay2 P0) (k0_pay2 P0)) t k).trans ?_
  refine Finset.sum_congr rfl fun c _ => ?_
  rw [mulf_apply, pay2_at]

/-- The shapelets' squares summed over channels, at `(s, k)`. -/
theorem pay5_at (P1 : Vec Ideal S64x32x8 .f32) (s : Fin 64) (k : Fin 32) :
    k0_pay5 P1 (ix2 s k) = ∑ c : Fin 8, P1 (ix3 s k c) * P1 (ix3 s k c) := by
  unfold k0_pay5
  refine (sum_chan_K (mulf (k0_pay3 P1) (k0_pay3 P1)) s k).trans ?_
  refine Finset.sum_congr rfl fun c _ => ?_
  rw [mulf_apply, pay3_eq]

/-- The first four accumulation steps from the zero splat, at `(t, s, k)`. -/
theorem pay6_at (P0 : Vec Ideal S1x481x32x8 .f32) (P1 : Vec Ideal S64x32x8 .f32) (t : Fin 481) (s : Fin 64)
    (k : Fin 32) :
    k0_pay6 P0 P1 (ix3 t s k)
      = (((Cert.Spec.wZero + P0 (ix4 0 t k 0) * P1 (ix3 s k 0)) + P0 (ix4 0 t k 1) * P1 (ix3 s k 1))
          + P0 (ix4 0 t k 2) * P1 (ix3 s k 2)) + P0 (ix4 0 t k 3) * P1 (ix3 s k 3) := by
  unfold k0_pay6
  rw [addf_apply, addf_apply, addf_apply, addf_apply,
    step_at _ _ 3 (by omega), step_at _ _ 2 (by omega), step_at _ _ 1 (by omega), step_at _ _ 0 (by omega),
    pay2_at, pay2_at, pay2_at, pay2_at, pay3_eq, broadcast_apply]
  rfl

/-- The stored value over any five operands, at `(0, t, k)`: the last four accumulation steps, the expanded
    square, and the minimum over shapelets. -/
theorem pay1_at (v1 : FVec Ideal S481x32x8 .f32) (v3 : FVec Ideal S64x32x8 .f32) (v5 : FVec Ideal S481x32 .f32)
    (v7 : FVec Ideal S64x32 .f32) (v48 : FVec Ideal S481x64x32 .f32) (t : Fin 481) (k : Fin 32) :
    k0_pay1 v1 v3 v5 v7 v48 (ix3 0 t k)
      = (Finset.univ : Finset (Fin 64)).fold min Cert.Spec.wInf fun s =>
          (v5 (ix2 t k) - Cert.Spec.wTwo * ((((v48 (ix3 t s k) + v1 (ix3 t k 4) * v3 (ix3 s k 4))
            + v1 (ix3 t k 5) * v3 (ix3 s k 5)) + v1 (ix3 t k 6) * v3 (ix3 s k 6)) + v1 (ix3 t k 7) * v3 (ix3 s k 7)))
          + v7 (ix2 s k) := by
  unfold k0_pay1
  dsimp only
  refine (shapeCast_ab_1ab_apply _ shapeCasts_S481x32_S1x481x32 _ t k).trans ?_
  refine (min_shapelets _ t k).trans ?_
  refine Finset.fold_congr fun s _ => ?_
  rw [addf_apply, subf_apply, mulf_apply, broadcast_apply, bcast_rows, bcast_cols,
    addf_apply, addf_apply, addf_apply, addf_apply,
    step_at _ _ 7 (by omega), step_at _ _ 6 (by omega), step_at _ _ 5 (by omega), step_at _ _ 4 (by omega)]
  rfl

/-- THE KERNEL BODY'S STORED VALUE at `(0, t, k)` is the kernel's arrangement of the squared distance, minimized over
    shapelets. -/
theorem pay_at (P0 : Vec Ideal S1x481x32x8 .f32) (P1 : Vec Ideal S64x32x8 .f32) (t : Fin 481) (k : Fin 32) :
    k0_pay1 (k0_pay2 P0) (k0_pay3 P1) (k0_pay4 P0) (k0_pay5 P1) (k0_pay6 P0 P1) (ix3 0 t k) = Cert.Spec.kerAt P0 P1 t k := by
  refine (pay1_at _ _ _ _ _ t k).trans ?_
  unfold Cert.Spec.kerAt
  refine Finset.fold_congr fun s _ => ?_
  unfold Cert.Spec.crossAt
  rw [pay4_at, pay5_at, pay6_at, pay2_at, pay2_at, pay2_at, pay2_at, pay3_eq]

end Cert.KernelIdeal.Body

end
-- ==== Proof.RefTail.lean ====
/-
  The reference's squared distance and minimum, read at one output index.

  `distMin P K` is, at `(b, t, k)`, the minimum over the 64 shapelets `s`, from the word of `+∞`, of the sum over
  the 8 channels `c`, from the word of zero, of the squared difference at `(b, t, s, k, c)`; and the difference there is
  `P[b,t,k,c] - K[s,k,c]`, each operand read through its two broadcasts. A reduction over one axis with a commutative
  and associative body is the fold over that axis's coordinates of the operand at the result index with the coordinate
  inserted; the inserted indices are `(b, t, s, k)` and `(b, t, s, k, c)`. The float words stay words.
-/
import proofs.«164180_j14310831030969_1_alg».proof.Proof.Spec
import proofs.«164180_j14310831030969_1_alg».proof.Proof.Forms
import proofs.«164180_j14310831030969_1_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.Spec.RefTail

open Idealize.ShloMosaic Idealize.ShloMosaic.ValueIdx Cert.ReferenceIdeal

/-! ## The two reduced axes, and the index over a result index with a coordinate inserted -/

/-- Dropping the shapelet axis of `[16, 481, 64, 32]` leaves `[16, 481, 32]`. -/
theorem red2 : S16x481x64x32.Reduces [2] S16x481x32 := by decide

/-- Dropping the channel axis of `[16, 481, 64, 32, 8]` leaves `[16, 481, 64, 32]`. -/
theorem red4 : S16x481x64x32x8.Reduces [4] S16x481x64x32 := by decide

/-- Over `(b, t, k)` with shapelet `s` inserted on axis 2: the index `(b, t, s, k)`. -/
theorem lift2 (b : Fin 16) (t : Fin 481) (k : Fin 32) (s : Fin 64) :
    red2.lift (ix3 b t k) s = ix4 b t s k := by
  funext a
  apply Fin.ext
  match a with
  | ⟨0, _⟩ => rfl
  | ⟨1, _⟩ => rfl
  | ⟨2, _⟩ => rfl
  | ⟨3, _⟩ => rfl

/-- Over `(b, t, s, k)` with channel `c` inserted on axis 4: the index `(b, t, s, k, c)`. -/
theorem lift4 (b : Fin 16) (t : Fin 481) (s : Fin 64) (k : Fin 32) (c : Fin 8) :
    red4.lift (ix4 b t s k) c = ix5 b t s k c := by
  funext a
  apply Fin.ext
  match a with
  | ⟨0, _⟩ => rfl
  | ⟨1, _⟩ => rfl
  | ⟨2, _⟩ => rfl
  | ⟨3, _⟩ => rfl
  | ⟨4, _⟩ => rfl

/-! ## The two broadcast chains at `(b, t, s, k, c)` -/

/-- The patches, given a unit shapelet axis and then repeated along it: at `(b, t, s, k, c)` the element `(b, t, k, c)`. -/
theorem bcastP_at (h1 : S16x481x32x8.BroadcastsInDim S16x481x1x32x8 (![0, 1, 3, 4] : Fin 4 → Fin S16x481x1x32x8.rank))
    (h2 : S16x481x1x32x8.BroadcastsInDim S16x481x64x32x8 (![0, 1, 2, 3, 4] : Fin 5 → Fin S16x481x64x32x8.rank))
    (P : S16x481x32x8.Idx → EReal) (b : Fin 16) (t : Fin 481) (s : Fin 64) (k : Fin 32) (c : Fin 8) :
    broadcastInDim S16x481x64x32x8 ![0, 1, 2, 3, 4] h2 (broadcastInDim S16x481x1x32x8 ![0, 1, 3, 4] h1 P) (ix5 b t s k c)
      = P (ix4 b t k c) := by
  refine (broadcastInDim_apply (![0, 1, 2, 3, 4] : Fin 5 → Fin S16x481x64x32x8.rank) h2
    (broadcastInDim S16x481x1x32x8 ![0, 1, 3, 4] h1 P) (ix5 b t s k c) (ix5 b t (0 : Fin 1) k c) ?_).trans ?_
  · intro a
    match a with
    | ⟨0, _⟩ => rfl
    | ⟨1, _⟩ => rfl
    | ⟨2, _⟩ => rfl
    | ⟨3, _⟩ => rfl
    | ⟨4, _⟩ => rfl
  · refine broadcastInDim_apply (![0, 1, 3, 4] : Fin 4 → Fin S16x481x1x32x8.rank) h1 P (ix5 b t (0 : Fin 1) k c) (ix4 b t k c) ?_
    intro a
    match a with
    | ⟨0, _⟩ => rfl
    | ⟨1, _⟩ => rfl
    | ⟨2, _⟩ => rfl
    | ⟨3, _⟩ => rfl

/-- The shapelets, given two unit leading axes and then repeated along them: at `(b, t, s, k, c)` the element `(s, k, c)`. -/
theorem bcastK_at (h1 : S64x32x8.BroadcastsInDim S1x1x64x32x8 (![2, 3, 4] : Fin 3 → Fin S1x1x64x32x8.rank))
    (h2 : S1x1x64x32x8.BroadcastsInDim S16x481x64x32x8 (![0, 1, 2, 3, 4] : Fin 5 → Fin S16x481x64x32x8.rank))
    (K : S64x32x8.Idx → EReal) (b : Fin 16) (t : Fin 481) (s : Fin 64) (k : Fin 32) (c : Fin 8) :
    broadcastInDim S16x481x64x32x8 ![0, 1, 2, 3, 4] h2 (broadcastInDim S1x1x64x32x8 ![2, 3, 4] h1 K) (ix5 b t s k c)
      = K (ix3 s k c) := by
  refine (broadcastInDim_apply (![0, 1, 2, 3, 4] : Fin 5 → Fin S16x481x64x32x8.rank) h2
    (broadcastInDim S1x1x64x32x8 ![2, 3, 4] h1 K) (ix5 b t s k c) (ix5 (0 : Fin 1) (0 : Fin 1) s k c) ?_).trans ?_
  · intro a
    match a with
    | ⟨0, _⟩ => rfl
    | ⟨1, _⟩ => rfl
    | ⟨2, _⟩ => rfl
    | ⟨3, _⟩ => rfl
    | ⟨4, _⟩ => rfl
  · refine broadcastInDim_apply (![2, 3, 4] : Fin 3 → Fin S1x1x64x32x8.rank) h1 K (ix5 (0 : Fin 1) (0 : Fin 1) s k c) (ix3 s k c) ?_
    intro a
    match a with
    | ⟨0, _⟩ => rfl
    | ⟨1, _⟩ => rfl
    | ⟨2, _⟩ => rfl

/-- The difference at `(b, t, s, k, c)`: `P[b,t,k,c] - K[s,k,c]`. -/
theorem diff_at (P : FVec Ideal S16x481x32x8 .f32) (K : FVec Ideal S64x32x8 .f32)
    (b : Fin 16) (t : Fin 481) (s : Fin 64) (k : Fin 32) (c : Fin 8) :
    Cert.Spec.diff P K (ix5 b t s k c) = P (ix4 b t k c) - K (ix3 s k c) := by
  unfold Cert.Spec.diff
  rw [subf_apply, bcastP_at, bcastK_at]

/-! ## The sum over channels, and the minimum over shapelets -/

/-- The sum over channels of the squared difference, at `(b, t, s, k)`. -/
theorem sumSq_at (P : FVec Ideal S16x481x32x8 .f32) (K : FVec Ideal S64x32x8 .f32)
    (b : Fin 16) (t : Fin 481) (s : Fin 64) (k : Fin 32) :
    Host.reduceAdd (mulf (Cert.Spec.diff P K) (Cert.Spec.diff P K)) (Cert.Spec.cst (F := Ideal) 0x00000000#32)
        Facts₀.reducesTo_S16x481x64x32x8_S16x481x64x32_d4 Facts₀.h_S_ (ix4 b t s k)
      = wZero + ∑ c : Fin 8, (P (ix4 b t k c) - K (ix3 s k c)) * (P (ix4 b t k c) - K (ix3 s k c)) := by
  rw [hostReduceAdd_apply]
  refine (Ideal.hostReduceAdd_single Facts₀.reducesTo_S16x481x64x32x8_S16x481x64x32_d4 red4
    (mulf (Cert.Spec.diff P K) (Cert.Spec.diff P K)) _ (ix4 b t s k)).trans ?_
  refine congrArg₂ (· + ·) rfl (Finset.sum_congr rfl fun (c : Fin 8) _ => ?_)
  rw [lift4 b t s k c, mulf_apply, diff_at P K b t s k c]

/-- The reference's tail at `(b, t, k)`: the minimum over shapelets of the squared distance summed over channels. -/
theorem distMin_at (P : FVec Ideal S16x481x32x8 .f32) (K : FVec Ideal S64x32x8 .f32) (b : Fin 16) (t : Fin 481) (k : Fin 32) :
    Cert.Spec.distMin P K (ix3 b t k) = Cert.Spec.refAt P K b t k := by
  unfold Cert.Spec.distMin Cert.Spec.refAt
  refine (Host.reduce_eq_fold_single (FloatOps.minimumf : Ideal .f32 → Ideal .f32 → Ideal .f32)
    (Host.reduceAdd (mulf (Cert.Spec.diff P K) (Cert.Spec.diff P K)) (Cert.Spec.cst (F := Ideal) 0x00000000#32)
      Facts₀.reducesTo_S16x481x64x32x8_S16x481x64x32_d4 Facts₀.h_S_)
    (Cert.Spec.cst (F := Ideal) 0x7F800000#32) Facts₀.reducesTo_S16x481x64x32_S16x481x32_d2 red2 Facts₀.h_S_ (ix3 b t k)).trans ?_
  refine Finset.fold_congr fun (s : Fin 64) _ => ?_
  show Host.reduceAdd (mulf (Cert.Spec.diff P K) (Cert.Spec.diff P K)) (Cert.Spec.cst (F := Ideal) 0x00000000#32)
      Facts₀.reducesTo_S16x481x64x32x8_S16x481x64x32_d4 Facts₀.h_S_ (red2.lift (ix3 b t k) s) = _
  rw [lift2 b t k s, sumSq_at P K b t s k]

end Cert.Spec.RefTail

end
-- ==== Proof.GlueReal.lean ====
/-
  The normalized arrays are real-valued when the inputs are.

  An extended real is "a real" when it is the coercion of some real number.  Sums, differences and products of
  reals are reals; a finite sum of reals is a real (induction on the index set), and is not negative when no term
  is; the quotient of a real by a positive real is a real, not negative when the dividend is not; the square root
  of a real that is not negative is again such a real.  The mean is a finite sum of reals divided by the count
  (512 or 256), so real; the deviations are real; the variance is the sum of their squares (each not negative)
  divided by the count minus zero, which is the count itself: a positive constant, so the select that guards the
  division always takes the quotient and never reads its other branch; the standard deviation is then a real that
  is not negative, and adding the positive constant ε makes it positive, hence not zero; so the normalized value,
  a real divided by a positive real, is a real.  Broadcasting, gathering, transposing and re-reading row-major
  only re-index an array: whatever holds of every entry of the operand holds of every entry of the result.
-/
import proofs.«164180_j14310831030969_1_alg».proof.Proof.Spec
import proofs.«164180_j14310831030969_1_alg».proof.Proof.Gen.ReferenceIdeal
import Idealize.ShloMosaic.Lib.ValueIdx
import Idealize.ShloMosaic.Lib.IdealHost
import Idealize.ShloMosaic.PureOps.Ideal.Laws

noncomputable section

namespace Cert.Spec.Real

open Idealize.ShloMosaic Cert.ReferenceIdeal
open scoped BigOperators

/-! ## Extended reals that are reals -/

/-- The extended real is the coercion of a real. -/
def IsR (a : EReal) : Prop := ∃ r : ℝ, a = (r : EReal)
/-- The extended real is the coercion of a real that is not negative. -/
def IsR0 (a : EReal) : Prop := ∃ r : ℝ, a = (r : EReal) ∧ 0 ≤ r
/-- The extended real is the coercion of a positive real. -/
def IsRpos (a : EReal) : Prop := ∃ r : ℝ, a = (r : EReal) ∧ 0 < r

theorem IsR0.isR {a : EReal} (h : IsR0 a) : IsR a := by
  obtain ⟨r, hr, _⟩ := h; exact ⟨r, hr⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- The square of a real is a real that is not negative. -/
theorem IsR.mul_self {a : EReal} (ha : IsR a) : IsR0 (a * a) := by
  obtain ⟨r, rfl⟩ := ha; exact ⟨r * r, (EReal.coe_mul r r).symm, mul_self_nonneg r⟩

theorem IsR0.add {a b : EReal} (ha : IsR0 a) (hb : IsR0 b) : IsR0 (a + b) := by
  obtain ⟨r, rfl, hr⟩ := ha; obtain ⟨s, rfl, hs⟩ := hb
  exact ⟨r + s, (EReal.coe_add r s).symm, add_nonneg hr hs⟩

theorem IsR0.add_pos {a b : EReal} (ha : IsR0 a) (hb : IsRpos b) : IsRpos (a + b) := by
  obtain ⟨r, rfl, hr⟩ := ha; obtain ⟨s, rfl, hs⟩ := hb
  exact ⟨r + s, (EReal.coe_add r s).symm, add_pos_of_nonneg_of_pos hr hs⟩

/-- A finite sum of reals is a real. -/
theorem IsR.sum {ι : Type} (S : Finset ι) (f : ι → EReal) (hf : ∀ i ∈ S, IsR (f i)) : IsR (∑ i ∈ S, f i) := by
  classical
  revert hf
  refine Finset.induction_on S ?_ ?_
  · intro _; exact ⟨0, by simp⟩
  · intro a T ha ih hf
    rw [Finset.sum_insert ha]
    exact (hf a (Finset.mem_insert_self a T)).add (ih fun i hi => hf i (Finset.mem_insert_of_mem hi))

/-- A finite sum of reals that are not negative is such a real. -/
theorem IsR0.sum {ι : Type} (S : Finset ι) (f : ι → EReal) (hf : ∀ i ∈ S, IsR0 (f i)) : IsR0 (∑ i ∈ S, f i) := by
  classical
  revert hf
  refine Finset.induction_on S ?_ ?_
  · intro _; exact ⟨0, by simp, le_refl 0⟩
  · intro a T ha ih hf
    rw [Finset.sum_insert ha]
    exact (hf a (Finset.mem_insert_self a T)).add (ih fun i hi => hf i (Finset.mem_insert_of_mem hi))

/-- The quotient of two reals, the divisor not zero, is the real quotient. -/
theorem div_coe_coe (r s : ℝ) (hs : s ≠ 0) : Ideal.div (r : EReal) (s : EReal) = ((r * (1 / s) : ℝ) : EReal) := by
  rw [Ideal.div_coe hs, ← EReal.coe_mul]

theorem IsR.div {a b : EReal} (ha : IsR a) (hb : IsRpos b) : IsR (Ideal.div a b) := by
  obtain ⟨r, rfl⟩ := ha; obtain ⟨s, rfl, hs⟩ := hb
  exact ⟨r * (1 / s), div_coe_coe r s hs.ne'⟩

theorem IsR0.div {a b : EReal} (ha : IsR0 a) (hb : IsRpos b) : IsR0 (Ideal.div a b) := by
  obtain ⟨r, rfl, hr⟩ := ha; obtain ⟨s, rfl, hs⟩ := hb
  exact ⟨r * (1 / s), div_coe_coe r s hs.ne', mul_nonneg hr (one_div_pos.mpr hs).le⟩

/-- The square root of a real that is not negative is such a real. -/
theorem IsR0.sqrt {a : EReal} (ha : IsR0 a) : IsR0 (Ideal.sqrt a) := by
  obtain ⟨r, rfl, hr⟩ := ha
  exact ⟨_root_.Real.sqrt r, by rw [Ideal.sqrt_coe, if_neg (not_lt.mpr hr)], _root_.Real.sqrt_nonneg r⟩

/-! ## Arrays: what holds of every entry -/

section Arrays
variable {s t : Shape}

/-- A broadcast only re-indexes. -/
theorem bcast_all {α : Type} (P : α → Prop) {dims : Fin s.rank → Fin t.rank} (hb : s.BroadcastsInDim t dims)
    {v : s.Idx → α} (h : ∀ i, P (v i)) : ∀ j, P (broadcastInDim t dims hb v j) := fun _ => h _

/-- A row-major re-read only re-indexes. -/
theorem shapeCast_all {α : Type} (P : α → Prop) (hc : s.ShapeCasts t) {v : s.Idx → α} (h : ∀ i, P (v i)) :
    ∀ j, P (shapeCast t v hc j) := fun _ => h _

/-- A transpose only re-indexes. -/
theorem transpose_all {α : Type} (P : α → Prop) (perm : List (Fin s.rank)) (hp : s.Transposes perm t)
    {v : s.Idx → α} (h : ∀ i, P (v i)) : ∀ j, P (transpose t perm v hp j) := fun _ => h _

/-- A gather only re-indexes. -/
theorem gather_all {α : Type} (P : α → Prop) {si : Shape} {w : Nat} (d : GatherDims s si t) (idx : IVec si w)
    {v : s.Idx → α} (h : ∀ i, P (v i)) : ∀ j, P (Host.gather d v idx j) := fun _ => h _

theorem subf_isR {a b : FVec Ideal s .f32} (ha : ∀ i, IsR (a i)) (hb : ∀ i, IsR (b i)) :
    ∀ i, IsR (subf a b i) := fun i => (ha i).sub (hb i)

theorem mulf_self_r0 {a : FVec Ideal s .f32} (ha : ∀ i, IsR (a i)) : ∀ i, IsR0 (mulf a a i) :=
  fun i => (ha i).mul_self

theorem addf_pos {a b : FVec Ideal s .f32} (ha : ∀ i, IsR0 (a i)) (hb : ∀ i, IsRpos (b i)) :
    ∀ i, IsRpos (addf a b i) := fun i => (ha i).add_pos (hb i)

theorem hostSqrt_r0 {a : FVec Ideal s .f32} (ha : ∀ i, IsR0 (a i)) : ∀ i, IsR0 (Host.sqrt a i) :=
  fun i => (ha i).sqrt

theorem hostDivf_isR {a b : FVec Ideal s .f32} (ha : ∀ i, IsR (a i)) (hb : ∀ i, IsRpos (b i)) :
    ∀ i, IsR (Host.divf a b i) := fun i => (ha i).div (hb i)

theorem hostDivf_r0 {a b : FVec Ideal s .f32} (ha : ∀ i, IsR0 (a i)) (hb : ∀ i, IsRpos (b i)) :
    ∀ i, IsR0 (Host.divf a b i) := fun i => (ha i).div (hb i)

/-- The host's sum over axes, from a real initial value, of an array of reals is an array of reals. -/
theorem reduce_isR {u : Shape} {axes : List (Fin s.rank)} {x : FVec Ideal s .f32} {init : u.Idx → Ideal .f32}
    (h : s.ReducesTo axes t) (hu : 0 < u.numel) (hx : ∀ i, IsR (x i)) (hi : ∀ i, IsR (init i)) :
    ∀ j, IsR (Host.reduceAdd x init h hu j) := by
  intro j
  rw [ValueIdx.hostReduceAdd_apply]
  unfold Ideal.hostReduceAdd
  exact (hi _).add (IsR.sum _ _ fun i _ => hx i)

/-- The same sum of reals that are not negative, from such an initial value, is an array of such reals. -/
theorem reduce_r0 {u : Shape} {axes : List (Fin s.rank)} {x : FVec Ideal s .f32} {init : u.Idx → Ideal .f32}
    (h : s.ReducesTo axes t) (hu : 0 < u.numel) (hx : ∀ i, IsR0 (x i)) (hi : ∀ i, IsR0 (init i)) :
    ∀ j, IsR0 (Host.reduceAdd x init h hu j) := by
  intro j
  rw [ValueIdx.hostReduceAdd_apply]
  unfold Ideal.hostReduceAdd
  exact (hi _).add (IsR0.sum _ _ fun i _ => hx i)

end Arrays

/-! ## The constants -/

/-- The word of 512.0. -/
theorem ofBits_512 : Ideal.ofBits .f32 0x44000000#32 = ((512 : ℝ) : EReal) := by
  simp [Ideal.ofBits, Ideal.ieee, -EReal.coe_mul]; norm_num

/-- The word of 256.0. -/
theorem ofBits_256 : Ideal.ofBits .f32 0x43800000#32 = ((256 : ℝ) : EReal) := by
  simp [Ideal.ofBits, Ideal.ieee, -EReal.coe_mul]; norm_num

/-- The word of ε denotes a positive real, 11258999 · 2⁻⁵⁰. -/
theorem ofBits_eps : IsRpos (Ideal.ofBits .f32 0x322BCC77#32) := by
  refine ⟨(11258999 : ℝ) * (2 : ℝ) ^ (-50 : ℤ), ?_, by positivity⟩
  simp [Ideal.ofBits, Ideal.ieee, -EReal.coe_mul]

/-! ## The scalar constants, read as arrays -/

theorem cst_zero_r0 (i : S_.Idx) : IsR0 (cst (F := Ideal) 0x00000000#32 i) :=
  ⟨0, by show Ideal.ofBits .f32 0x00000000#32 = _; rw [Ideal.ofBits_zero_f32, EReal.coe_zero], le_refl 0⟩

theorem cst_512_pos (i : S_.Idx) : IsRpos (cst (F := Ideal) 0x44000000#32 i) := ⟨512, ofBits_512, by norm_num⟩

theorem cst_256_pos (i : S_.Idx) : IsRpos (cst (F := Ideal) 0x43800000#32 i) := ⟨256, ofBits_256, by norm_num⟩

theorem cst_eps_pos (i : S_.Idx) : IsRpos (cst (F := Ideal) 0x322BCC77#32 i) := ofBits_eps

/-- The divisor of the series' variance, 512 minus the integer zero converted, is 512. -/
theorem cntX_eq (i : S_.Idx) : cntX (F := Ideal) i = ((512 : ℝ) : EReal) := by
  show Ideal.ofBits .f32 0x44000000#32 - (((0#32 : BitVec 32).toInt : ℝ) : EReal) = _
  rw [ofBits_512]; simp

theorem cntX_pos (i : S_.Idx) : IsRpos (cntX (F := Ideal) i) := ⟨512, cntX_eq i, by norm_num⟩

/-- The divisor of the shapelets' variance, 256 minus the integer zero converted, is 256. -/
theorem cntK_eq (i : S_.Idx) : cntK (F := Ideal) i = ((256 : ℝ) : EReal) := by
  show Ideal.ofBits .f32 0x43800000#32 - (((0#32 : BitVec 32).toInt : ℝ) : EReal) = _
  rw [ofBits_256]; simp

theorem cntK_pos (i : S_.Idx) : IsRpos (cntK (F := Ideal) i) := ⟨256, cntK_eq i, by norm_num⟩

/-- The condition of the series' select, 512 > 0, is the bit 1 at every index. -/
theorem condX {t : Shape} (hb : S_.BroadcastsInDim t ![]) (j : t.Idx) :
    broadcastInDim t ![] hb (cmpf .ogt (cntX (F := Ideal)) (cst 0x00000000#32)) j = 1#1 := by
  show Ideal.cmp .ogt (cntX (F := Ideal) _) (Ideal.ofBits .f32 0x00000000#32) = 1#1
  rw [cntX_eq, Ideal.ofBits_zero_f32]
  have h : (0 : EReal) < ((512 : ℝ) : EReal) := EReal.coe_pos.mpr (by norm_num)
  simp [Ideal.cmp, h]

/-- The condition of the shapelets' select, 256 > 0, is the bit 1 at every index. -/
theorem condK {t : Shape} (hb : S_.BroadcastsInDim t ![]) (j : t.Idx) :
    broadcastInDim t ![] hb (cmpf .ogt (cntK (F := Ideal)) (cst 0x00000000#32)) j = 1#1 := by
  show Ideal.cmp .ogt (cntK (F := Ideal) _) (Ideal.ofBits .f32 0x00000000#32) = 1#1
  rw [cntK_eq, Ideal.ofBits_zero_f32]
  have h : (0 : EReal) < ((256 : ℝ) : EReal) := EReal.coe_pos.mpr (by norm_num)
  simp [Ideal.cmp, h]

/-! ## The series -/

theorem meanX_isR (x : FVec Ideal S16x512x8 .f32) (hx : ∀ i, IsR (x i)) : ∀ j, IsR (meanX x j) := by
  unfold meanX
  exact hostDivf_isR (bcast_all IsR _ (reduce_isR _ _ hx fun i => (cst_zero_r0 i).isR))
    (bcast_all IsRpos _ cst_512_pos)

theorem devX_isR (x : FVec Ideal S16x512x8 .f32) (hx : ∀ i, IsR (x i)) : ∀ j, IsR (devX x j) := by
  unfold devX
  exact subf_isR hx (bcast_all IsR _ (meanX_isR x hx))

/-- The variance is the quotient branch of its select: a real that is not negative. -/
theorem varX_r0 (x : FVec Ideal S16x512x8 .f32) (hx : ∀ i, IsR (x i)) : ∀ j, IsR0 (varX x j) := by
  intro j
  unfold varX
  rw [ValueIdx.select_apply, condX, ValueIdx.select_one]
  exact hostDivf_r0 (bcast_all IsR0 _ (reduce_r0 _ _ (mulf_self_r0 (devX_isR x hx)) cst_zero_r0))
    (bcast_all IsRpos _ cntX_pos) j

theorem stdX_pos (x : FVec Ideal S16x512x8 .f32) (hx : ∀ i, IsR (x i)) : ∀ j, IsRpos (stdX x j) := by
  unfold stdX
  exact addf_pos (hostSqrt_r0 (varX_r0 x hx)) (bcast_all IsRpos _ cst_eps_pos)

theorem xnorm_isR (x : FVec Ideal S16x512x8 .f32) (hx : ∀ i, IsR (x i)) : ∀ j, IsR (xnorm x j) := by
  unfold xnorm
  exact hostDivf_isR (devX_isR x hx) (bcast_all IsRpos _ (stdX_pos x hx))

theorem patches_isR (x : FVec Ideal S16x512x8 .f32) (hx : ∀ i, IsR (x i)) : ∀ j, IsR (patches x j) := by
  unfold patches
  exact shapeCast_all IsR _ (transpose_all IsR _ _ (gather_all IsR _ _ (xnorm_isR x hx)))

/-! ## The shapelets -/

theorem meanK_isR (w : FVec Ideal S64x32x8 .f32) (hw : ∀ i, IsR (w i)) : ∀ j, IsR (meanK w j) := by
  unfold meanK
  exact hostDivf_isR (bcast_all IsR _ (reduce_isR _ _ hw fun i => (cst_zero_r0 i).isR))
    (bcast_all IsRpos _ cst_256_pos)

theorem devK_isR (w : FVec Ideal S64x32x8 .f32) (hw : ∀ i, IsR (w i)) : ∀ j, IsR (devK w j) := by
  unfold devK
  exact subf_isR hw (bcast_all IsR _ (meanK_isR w hw))

/-- The variance is the quotient branch of its select: a real that is not negative. -/
theorem varK_r0 (w : FVec Ideal S64x32x8 .f32) (hw : ∀ i, IsR (w i)) : ∀ j, IsR0 (varK w j) := by
  intro j
  unfold varK
  rw [ValueIdx.select_apply, condK, ValueIdx.select_one]
  exact hostDivf_r0 (bcast_all IsR0 _ (reduce_r0 _ _ (mulf_self_r0 (devK_isR w hw)) cst_zero_r0))
    (bcast_all IsRpos _ cntK_pos) j

theorem stdK_pos (w : FVec Ideal S64x32x8 .f32) (hw : ∀ i, IsR (w i)) : ∀ j, IsRpos (stdK w j) := by
  unfold stdK
  exact addf_pos (hostSqrt_r0 (varK_r0 w hw)) (bcast_all IsRpos _ cst_eps_pos)

theorem kern_isR (w : FVec Ideal S64x32x8 .f32) (hw : ∀ i, IsR (w i)) : ∀ j, IsR (kern w j) := by
  unfold kern
  exact hostDivf_isR (devK_isR w hw) (bcast_all IsRpos _ (stdK_pos w hw))

/-! ## The two statements -/

/-- The windows of the normalized series are reals when the series is. -/
theorem patches_real (x : FVec Ideal S16x512x8 .f32) (hx : ∀ i, ∃ r : ℝ, x i = (r : EReal)) :
    ∀ j, ∃ r : ℝ, Cert.Spec.patches x j = (r : EReal) := patches_isR x hx

/-- The normalized shapelets are reals when the shapelets are. -/
theorem kern_real (w : FVec Ideal S64x32x8 .f32) (hw : ∀ i, ∃ r : ℝ, w i = (r : EReal)) :
    ∀ j, ∃ r : ℝ, Cert.Spec.kern w j = (r : EReal) := kern_isR w hw

end Cert.Spec.Real

end
-- ==== Proof.Law.lean ====
/-
  The law that joins the two arrangements.  For real numbers `a_c`, `q_c` (eight channels):

      (∑_c a_c² - 2 · (((0 + a₀q₀) + a₁q₁) + … + a₇q₇)) + ∑_c q_c²  =  0 + ∑_c (a_c - q_c)²,

  the binomial expansion summed over channels.  It holds in the reals and fails at infinities (`∞ - ∞`), so it is
  stated for entries that are real; under the minimum over shapelets the two sides are then the same function of `s`.
-/
import proofs.«164180_j14310831030969_1_alg».proof.Proof.Forms
import Idealize.ShloMosaic.PureOps.Ideal.Laws
import Mathlib.Algebra.BigOperators.Fin
import Mathlib.Tactic.Ring
import Mathlib.Tactic.NormNum

noncomputable section

namespace Cert.Spec

open Idealize.ShloMosaic Idealize.ShloMosaic.ValueIdx

/-- The word `0x00000000` is zero. -/
theorem wZero_eq : wZero = ((0 : ℝ) : EReal) := by
  show Ideal.ofBits .f32 0x00000000#32 = _
  rw [Ideal.ofBits_zero_f32]; rfl

/-- The word `0x40000000` is two: sign 0, exponent 128, fraction 0, so `2²³ · 2^(128 - 127 - 23)`. -/
theorem wTwo_eq : wTwo = ((2 : ℝ) : EReal) := by
  show Ideal.ofBits .f32 0x40000000#32 = _
  simp [Ideal.ofBits, Ideal.ieee]
  norm_num
  exact_mod_cast (by norm_num : (8388608 : ℝ) * (1 / 4194304) = 2)

/-- The binomial expansion over eight channels, in the reals. -/
theorem expand_real (a q : Fin 8 → ℝ) :
    ((a 0 * a 0 + a 1 * a 1 + a 2 * a 2 + a 3 * a 3 + a 4 * a 4 + a 5 * a 5 + a 6 * a 6 + a 7 * a 7)
        - 2 * ((((((((0 + a 0 * q 0) + a 1 * q 1) + a 2 * q 2) + a 3 * q 3) + a 4 * q 4) + a 5 * q 5) + a 6 * q 6) + a 7 * q 7))
      + (q 0 * q 0 + q 1 * q 1 + q 2 * q 2 + q 3 * q 3 + q 4 * q 4 + q 5 * q 5 + q 6 * q 6 + q 7 * q 7)
    = 0 + ((a 0 - q 0) * (a 0 - q 0) + (a 1 - q 1) * (a 1 - q 1) + (a 2 - q 2) * (a 2 - q 2) + (a 3 - q 3) * (a 3 - q 3)
        + (a 4 - q 4) * (a 4 - q 4) + (a 5 - q 5) * (a 5 - q 5) + (a 6 - q 6) * (a 6 - q 6) + (a 7 - q 7) * (a 7 - q 7)) := by
  ring

/-- Where the patches and the shapelets are real-valued, the expanded square over one batch's block of the patches,
    minimized over shapelets, is the squared distance minimized over shapelets. -/
theorem kerAt_eq_refAt (P : (⟨4, ![16, 481, 32, 8]⟩ : Shape).Idx → EReal) (K : (⟨3, ![64, 32, 8]⟩ : Shape).Idx → EReal)
    (hP : ∀ i, ∃ r : ℝ, P i = (r : EReal)) (hK : ∀ i, ∃ r : ℝ, K i = (r : EReal))
    (p : (⟨4, ![1, 481, 32, 8]⟩ : Shape).Idx → EReal) (b : Fin 16) (t : Fin 481) (k : Fin 32)
    (hp : ∀ c : Fin 8, p (ix4 0 t k c) = P (ix4 b t k c)) :
    kerAt p K t k = refAt P K b t k := by
  unfold kerAt refAt
  refine congrArg (fun f => (Finset.univ : Finset (Fin 64)).fold min wInf f) (funext fun s => ?_)
  obtain ⟨a, ha⟩ : ∃ a : Fin 8 → ℝ, ∀ c, P (ix4 b t k c) = ((a c : ℝ) : EReal) :=
    ⟨fun c => (hP (ix4 b t k c)).choose, fun c => (hP (ix4 b t k c)).choose_spec⟩
  obtain ⟨q, hq⟩ : ∃ q : Fin 8 → ℝ, ∀ c, K (ix3 s k c) = ((q c : ℝ) : EReal) :=
    ⟨fun c => (hK (ix3 s k c)).choose, fun c => (hK (ix3 s k c)).choose_spec⟩
  unfold crossAt
  simp only [hp, ha, hq, Fin.sum_univ_eight, wZero_eq, wTwo_eq]
  exact_mod_cast expand_real a q

end Cert.Spec

end
-- ==== Proof.KernelValue.lean ====
/-
  The kernel's output array after its run, as one function of the arguments.

  The grid has one point per batch.  At point `t` the staged patches block is batch `t` of the windows of the
  normalized series, and the staged shapelets are the whole normalized table; the body stores, at `(0, t', k)` of its
  output block, the expanded-square form of the squared distance minimized over shapelets; for real-valued operands
  that is the squared distance itself minimized over shapelets, the common result at `(t, t', k)`.  The sixteen
  output blocks tile the output array, so after the run the array is the common result everywhere.
-/
import proofs.«164180_j14310831030969_1_alg».proof.Proof.KernelValueGen
import proofs.«164180_j14310831030969_1_alg».proof.Proof.KernelGlue
import proofs.«164180_j14310831030969_1_alg».proof.Proof.KernelBody
import proofs.«164180_j14310831030969_1_alg».proof.Proof.RefTail
import proofs.«164180_j14310831030969_1_alg».proof.Proof.GlueReal
import proofs.«164180_j14310831030969_1_alg».proof.Proof.Law
import Idealize.ShloMosaic.Lib.ValueIdx
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- One batch's block: where the staged patches block is batch `b` of real-valued `P` and the staged shapelets are
    real-valued `K`, the body's stored value at `(0, t, k)` is the squared-distance minimum at `(b, t, k)`. -/
theorem point_eq (P : FVec Ideal Cert.ReferenceIdeal.S16x481x32x8 .f32) (K : FVec Ideal Cert.ReferenceIdeal.S64x32x8 .f32)
    (hP : ∀ i, ∃ r : ℝ, P i = (r : EReal)) (hK : ∀ i, ∃ r : ℝ, K i = (r : EReal))
    (x0 : Vec Ideal S1x481x32x8 .f32) (x1 : Vec Ideal S64x32x8 .f32) (b : Fin 16)
    (h0 : ∀ (t : Fin 481) (k : Fin 32) (c : Fin 8), x0 (ix4 0 t k c) = P (ix4 b t k c)) (h1 : x1 = K)
    (t : Fin 481) (k : Fin 32) :
    k0_pay1 (k0_pay2 x0) (k0_pay3 x1) (k0_pay4 x0) (k0_pay5 x1) (k0_pay6 x0 x1) (ix3 0 t k)
      = Cert.Spec.distMin (F := Ideal) P K (ix3 b t k) := by
  subst h1
  rw [Body.pay_at, Cert.Spec.RefTail.distMin_at]
  exact Cert.Spec.kerAt_eq_refAt P x1 hP hK x0 b t k (fun c => h0 t k c)

/-- The printed index maps, decided over the sixteen points: the patches and the output move with the batch; the
    shapelets stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch a grid point works on. -/
def batch (t : Fin cfg0.N) : Fin 16 := ⟨t.val, lt_of_lt_of_eq t.isLt N_0⟩

/-- The patches block staged at point `t` is batch `t` of the windows of the normalized series. -/
theorem blk0_at (c : Dev nD) (t : Fin cfg0.N) (t' : Fin 481) (k' : Fin 32) (c' : Fin 8) :
    iblk m c 0 t (ix4 0 t' k' c')
      = Cert.Spec.patches (F := Ideal) (m ((c : Thread nD τ).loc main_arg0)) (ix4 (batch t) t' k' c') := by
  obtain ⟨e00, e01, e02, e03, -⟩ := idx_facts t
  show V m c main_v26 (((cfg0.win 0).blk t).view.emb (ix4 0 t' k' c')) = _
  rw [Glue.V_patches m c]
  refine congrArg _ (funext fun a => Fin.ext ?_)
  match a with
  | ⟨0, _⟩ => show win0_0.index t (0 : Fin 4) * 1 + 1 * 0 = t.val; omega
  | ⟨1, _⟩ => show win0_0.index t (1 : Fin 4) * 481 + 1 * t'.val = t'.val; omega
  | ⟨2, _⟩ => show win0_0.index t (2 : Fin 4) * 32 + 1 * k'.val = k'.val; omega
  | ⟨3, _⟩ => show win0_0.index t (3 : Fin 4) * 8 + 1 * c'.val = c'.val; omega

/-- The shapelets block staged at every point is the whole normalized shapelet table. -/
theorem blk1_eq (c : Dev nD) (t : Fin cfg0.N) :
    iblk m c 1 t = Cert.Spec.kern (F := Ideal) (m ((c : Thread nD τ).loc main_arg1)) := by
  obtain ⟨-, -, -, -, e10, e11, e12, -⟩ := idx_facts t
  refine funext fun (y : S64x32x8.Idx) => ?_
  show V m c main_v37 (((cfg0.win 1).blk t).view.emb y) = _
  rw [Glue.V_kern m c]
  refine congrArg _ (funext fun a => Fin.ext ?_)
  match a with
  | ⟨0, _⟩ => show win0_1.index t (0 : Fin 3) * 64 + 1 * (y 0).val = (y 0).val; omega
  | ⟨1, _⟩ => show win0_1.index t (1 : Fin 3) * 32 + 1 * (y 1).val = (y 1).val; omega
  | ⟨2, _⟩ => show win0_1.index t (2 : Fin 3) * 8 + 1 * (y 2).val = (y 2).val; omega

/-- What point `t` stores at `(0, t', k)` of its block is the common result at `(batch t, t', k)`. -/
theorem stored_at (c : Dev nD)
    (hPr : ∀ j, ∃ r : ℝ, Cert.Spec.patches (F := Ideal) (m ((c : Thread nD τ).loc main_arg0)) j = (r : EReal))
    (hKr : ∀ j, ∃ r : ℝ, Cert.Spec.kern (F := Ideal) (m ((c : Thread nD τ).loc main_arg1)) j = (r : EReal))
    (t : Fin cfg0.N) (t' : Fin 481) (k : Fin 32) :
    k0_pay1 (k0_pay2 (iblk m c 0 t)) (k0_pay3 (iblk m c 1 t)) (k0_pay4 (iblk m c 0 t)) (k0_pay5 (iblk m c 1 t))
        (k0_pay6 (iblk m c 0 t) (iblk m c 1 t)) (ix3 0 t' k)
      = Cert.Spec.result (F := Ideal) (m ((c : Thread nD τ).loc main_arg0)) (m ((c : Thread nD τ).loc main_arg1))
          (ix3 (batch t) t' k) :=
  point_eq _ _ hPr hKr (iblk m c 0 t) (iblk m c 1 t) (batch t) (fun t'' k'' c'' => blk0_at m c t t'' k'' c'')
    (blk1_eq m c t) t' k

/-- Block `t` of any array over the output's shape, read at `(0, t', k)`, is the array at `(batch t, t', k)`. -/
theorem read_blk2 (G : S16x481x32.Idx → EReal) (t : Fin cfg0.N) (t' : Fin 481) (k : Fin 32) :
    ((cfg0.win 2).blk t).view.read (Elt Ideal) G (ix3 (0 : Fin 1) t' k) = G (ix3 (batch t) t' k) := by
  obtain ⟨-, -, -, -, -, -, -, e20, e21, e22⟩ := idx_facts t
  show G (((cfg0.win 2).blk t).view.emb (ix3 (0 : Fin 1) t' k)) = _
  refine congrArg G (funext fun a => Fin.ext ?_)
  match a with
  | ⟨0, _⟩ => show win0_2.index t (0 : Fin 3) * 1 + 1 * 0 = t.val; omega
  | ⟨1, _⟩ => show win0_2.index t (1 : Fin 3) * 481 + 1 * t'.val = t'.val; omega
  | ⟨2, _⟩ => show win0_2.index t (2 : Fin 3) * 32 + 1 * k.val = k.val; omega

/-- What point `t` writes back is block `t` of the common result. -/
theorem flushed2_eq (c : Dev nD)
    (hPr : ∀ j, ∃ r : ℝ, Cert.Spec.patches (F := Ideal) (m ((c : Thread nD τ).loc main_arg0)) j = (r : EReal))
    (hKr : ∀ j, ∃ r : ℝ, Cert.Spec.kern (F := Ideal) (m ((c : Thread nD τ).loc main_arg1)) j = (r : EReal))
    (t : Fin cfg0.N) :
    (dats m 0 c).flushed 2 t = ((cfg0.win 2).blk t).view.read (Elt Ideal)
      (Cert.Spec.result (F := Ideal) (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  simp only [View.ld_unit_zero (S := S1x481x32x8) hz4, View.ld_unit_zero (S := S64x32x8) hz3]
  refine funext fun (j : S1x481x32.Idx) => ?_
  obtain ⟨u, t', k, rfl⟩ : ∃ (u : Fin 1) (t' : Fin 481) (k : Fin 32), j = ix3 u t' k := ⟨j 0, j 1, j 2, eq_ix3 j⟩
  obtain rfl : u = 0 := Fin.ext (by have hu : u.val < 1 := u.isLt; show u.val = 0; omega)
  refine (stored_at m c hPr hKr t t' k).trans ?_
  exact (read_blk2 _ t t' k).symm

/-- An index of the output array is in point `t`'s block iff each coordinate is in the block's range on its axis. -/
theorem mem_blk2 (t : Fin cfg0.N) (i : S16x481x32.Idx) :
    i ∈ ((cfg0.win 2).blk t).view.set ↔ ∀ a : Fin 3, win0_2.index t a * S1x481x32.size a ≤ (i a).val ∧ (i a).val < win0_2.index t a * S1x481x32.size a + S1x481x32.size a := by
  show i ∈ ((View.whole main_v38).slice (win0_2.rect t)).set ↔ _
  rw [View.set_slice_whole, Rect.mem_set_unit]
  exact Iff.rfl

/-- Every index of the output array is in its batch's block. -/
theorem cover (i : S16x481x32.Idx) : ∃ t : Fin cfg0.N, (cfg0.win 2).flush t = true ∧ i ∈ ((cfg0.win 2).blk t).view.set := by
  have hi0 : (i 0).val < 16 := (i 0).isLt
  have hi1 : (i 1).val < 481 := (i 1).isLt
  have hi2 : (i 2).val < 32 := (i 2).isLt
  let t : Fin cfg0.N := ⟨(i 0).val, lt_of_lt_of_eq hi0 N_0.symm⟩
  obtain ⟨-, -, -, -, -, -, -, e20, e21, e22⟩ := idx_facts t
  have e20' : win0_2.index t (0 : Fin 3) = (i 0).val := e20
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 481 ≤ (i 1).val ∧ (i 1).val < win0_2.index t (1 : Fin 3) * 481 + 481; omega
  | ⟨2, _⟩ => show win0_2.index t (2 : Fin 3) * 32 ≤ (i 2).val ∧ (i 2).val < win0_2.index t (2 : Fin 3) * 32 + 32; omega

/-- The output array after the run is the common result of the arguments. -/
theorem final2 (c : Dev nD)
    (hPr : ∀ j, ∃ r : ℝ, Cert.Spec.patches (F := Ideal) (m ((c : Thread nD τ).loc main_arg0)) j = (r : EReal))
    (hKr : ∀ j, ∃ r : ℝ, Cert.Spec.kern (F := Ideal) (m ((c : Thread nD τ).loc main_arg1)) j = (r : EReal)) :
    (dats m 0 c).arrAt 2 cfg0.N
      = Cert.Spec.result (F := Ideal) (m ((c : Thread nD τ).loc main_arg0)) (m ((c : Thread nD τ).loc main_arg1)) :=
  (dats m 0 c).arrAt_eq_of_cover 2 _ (fun t _ => flushed2_eq m c hPr hKr t) cover

/-- The kernel's run, read: where both arguments are real-valued, every weakly fair execution terminates with the
    output array at the common result of the arguments, and the arguments unchanged. -/
theorem run (hreal : ∀ c : Dev nD, (∀ i, ∃ r : ℝ, m ((c : Thread nD τ).loc main_arg0) i = (r : EReal))
      ∧ (∀ i, ∃ r : ℝ, m ((c : Thread nD τ).loc main_arg1) i = (r : EReal))) :
    θ_run defs (onTc (τ := τ) (main (F := Ideal))) ⟨m, fun _ => 0, ρ⟩ fun r => ∀ c : Dev nD,
      r.2.mem ((c : Thread nD τ).loc main_v38)
          = Cert.Spec.result (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c (Cert.Spec.Real.patches_real _ (hreal c).1)
      (Cert.Spec.Real.kern_real _ (hreal c).2)), (h c).2⟩)
    (Cert.KernelIdeal.ValueP.run_blocks m ρ)

end Cert.KernelIdeal.KValue

end
-- ==== Proof.RefRun.lean ====
/-
  The reference program's run, read back.  @main is a straight line of 104 host operations once its two calls are
  unfolded; it is cut here into six stretches, run as one line, and each stretch's results are read off the fold of the
  operations' results: after the run the result buffer holds `Cert.Spec.result` of the two arguments' launch contents and
  the arguments are unchanged.
-/
import proofs.«164180_j14310831030969_1_alg».proof.Proof.Spec
import proofs.«164180_j14310831030969_1_alg».proof.Proof.Gen.ReferenceIdeal
import Idealize.ShloMosaic.Lib.StableHlo.Run
import Idealize.ShloMosaic.Lib.Pipeline.Frame
noncomputable section
namespace Cert.ReferenceIdeal.Run
open Cert.ReferenceIdeal Cert.ReferenceIdeal.Gen Idealize.ShloMosaic Idealize.ShloMosaic.TcCoe Idealize.SL.Sem Idealize.ShloMosaic.StableHlo
variable {F : FTy → Type} [FloatOps F]

/-! ## The operations, in six stretches -/

/-- The first seven operations: the series' sum over time, its mean, and the integer zero the first call takes. -/
abbrev ops0 : List (HloOp τ sig (Elt F)) :=
  [ StableHlo.nullary main_cst (constant S_ .f32 0x00000000#32),
    StableHlo.binary main_arg0 main_cst main_v0 ((fun x v => Host.reduceAdd x v reducesTo_S16x512x8_S16x8_d1 h_S_) : (⟨S16x512x8, .f32⟩ : BufTy).Contents (Elt F) → (⟨S_, .f32⟩ : BufTy).Contents (Elt F) → (⟨S16x8, .f32⟩ : BufTy).Contents (Elt F)),
    StableHlo.unary main_v0 main_v1 (broadcastInDim S16x1x8 ![0, 2] bcast_S16x8_S16x1x8_0_2 : (⟨S16x8, .f32⟩ : BufTy).Contents (Elt F) → (⟨S16x1x8, .f32⟩ : BufTy).Contents (Elt F)),
    StableHlo.nullary main_cst_0 (constant S_ .f32 0x44000000#32),
    StableHlo.unary main_cst_0 main_v2 (broadcastInDim S16x1x8 ![] bcast_S_S16x1x8 : (⟨S_, .f32⟩ : BufTy).Contents (Elt F) → (⟨S16x1x8, .f32⟩ : BufTy).Contents (Elt F)),
    StableHlo.binary main_v1 main_v2 main_v3 (Host.divf : (⟨S16x1x8, .f32⟩ : BufTy).Contents (Elt F) → (⟨S16x1x8, .f32⟩ : BufTy).Contents (Elt F) → (⟨S16x1x8, .f32⟩ : BufTy).Contents (Elt F)),
    StableHlo.nullary main_c (constantI S_ 32 0#32) ]
theorem ops0_sub : (ops0 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩

/-- The twenty-four operations of the first call (the standard deviation of the series): the variance's operations, the select, the square root. -/
abbrev ops1 : List (HloOp τ sig (Elt F)) :=
  [ StableHlo.TRef.nullary (.of main_call0_call0_cst : StableHlo.TRef sig ⟨S_, .f32⟩) (constant S_ .f32 0x00000000#32),
    StableHlo.TRef.binary (.of main_arg0 : StableHlo.TRef sig ⟨S16x512x8, .f32⟩) (.of main_call0_call0_cst : StableHlo.TRef sig ⟨S_, .f32⟩) (.of main_call0_call0_v0 : StableHlo.TRef sig ⟨S16x8, .f32⟩) (fun x v => Host.reduceAdd x v reducesTo_S16x512x8_S16x8_d1 h_S_),
    StableHlo.TRef.unary (.of main_call0_call0_v0 : StableHlo.TRef sig ⟨S16x8, .f32⟩) (.of main_call0_call0_v1 : StableHlo.TRef sig ⟨S16x1x8, .f32⟩) (broadcastInDim S16x1x8 ![0, 2] bcast_S16x8_S16x1x8_0_2),
    StableHlo.TRef.nullary (.of main_call0_call0_cst_0 : StableHlo.TRef sig ⟨S_, .f32⟩) (constant S_ .f32 0x44000000#32),
    StableHlo.TRef.unary (.of main_call0_call0_cst_0 : StableHlo.TRef sig ⟨S_, .f32⟩) (.of main_call0_call0_v2 : StableHlo.TRef sig ⟨S16x1x8, .f32⟩) (broadcastInDim S16x1x8 ![] bcast_S_S16x1x8),
    StableHlo.TRef.binary (.of main_call0_call0_v1 : StableHlo.TRef sig ⟨S16x1x8, .f32⟩) (.of main_call0_call0_v2 : StableHlo.TRef sig ⟨S16x1x8, .f32⟩) (.of main_call0_call0_v3 : StableHlo.TRef sig ⟨S16x1x8, .f32⟩) Host.divf,
    StableHlo.TRef.unary (.of main_call0_call0_v3 : StableHlo.TRef sig ⟨S16x1x8, .f32⟩) (.of main_call0_call0_v4 : StableHlo.TRef sig ⟨S16x512x8, .f32⟩) (broadcastInDim S16x512x8 ![0, 1, 2] bcast_S16x1x8_S16x512x8_0_1_2),
    StableHlo.TRef.binary (.of main_arg0 : StableHlo.TRef sig ⟨S16x512x8, .f32⟩) (.of main_call0_call0_v4 : StableHlo.TRef sig ⟨S16x512x8, .f32⟩) (.of main_call0_call0_v5 : StableHlo.TRef sig ⟨S16x512x8, .f32⟩) subf,
    StableHlo.TRef.binary (.of main_call0_call0_v5 : StableHlo.TRef sig ⟨S16x512x8, .f32⟩) (.of main_call0_call0_v5 : StableHlo.TRef sig ⟨S16x512x8, .f32⟩) (.of main_call0_call0_v6 : StableHlo.TRef sig ⟨S16x512x8, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x44000000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S16x512x8, .f32⟩) (.of main_call0_call0_cst_2 : StableHlo.TRef sig ⟨S_, .f32⟩) (.of main_call0_call0_v9 : StableHlo.TRef sig ⟨S16x8, .f32⟩) (fun x v => Host.reduceAdd x v reducesTo_S16x512x8_S16x8_d1 h_S_),
    StableHlo.TRef.unary (.of main_call0_call0_v9 : StableHlo.TRef sig ⟨S16x8, .f32⟩) (.of main_call0_call0_v10 : StableHlo.TRef sig ⟨S16x1x8, .f32⟩) (broadcastInDim S16x1x8 ![0, 2] bcast_S16x8_S16x1x8_0_2),
    StableHlo.TRef.unary (.of main_call0_call0_v8 : StableHlo.TRef sig ⟨S_, .f32⟩) (.of main_call0_call0_v11 : StableHlo.TRef sig ⟨S16x1x8, .f32⟩) (broadcastInDim S16x1x8 ![] bcast_S_S16x1x8),
    StableHlo.TRef.binary (.of main_call0_call0_v10 : StableHlo.TRef sig ⟨S16x1x8, .f32⟩) (.of main_call0_call0_v11 : StableHlo.TRef sig ⟨S16x1x8, .f32⟩) (.of main_call0_call0_v12 : StableHlo.TRef sig ⟨S16x1x8, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v13 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.unary (.of main_call0_call0_call0_v0 : StableHlo.TRef sig ⟨S_, .f32⟩) (.of main_call0_call0_call0_v1 : StableHlo.TRef sig ⟨S16x1x8, .f32⟩) (broadcastInDim S16x1x8 ![] bcast_S_S16x1x8),
    StableHlo.TRef.ternary (.of main_call0_call0_v13 : StableHlo.TRef sig ⟨S_, .i1⟩) (.of main_call0_call0_v12 : StableHlo.TRef sig ⟨S16x1x8, .f32⟩) (.of main_call0_call0_call0_v1 : StableHlo.TRef sig ⟨S16x1x8, .f32⟩) (.of main_call0_v0 : StableHlo.TRef sig ⟨S16x1x8, .f32⟩) (fun p a b => select (broadcastInDim S16x1x8 ![] bcast_S_S16x1x8 p) a b),
    StableHlo.TRef.unary main_call0_call0.call0.v2 (.of main_v4 : StableHlo.TRef sig ⟨S16x1x8, .f32⟩) Host.sqrt ]
theorem ops1_sub : (ops1 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩

/-- The next thirty-two operations: the normalized series, the window indices, the gather, transpose and reshape; the shapelets' mean and the integer zero the second call takes. -/
abbrev ops2 : List (HloOp τ sig (Elt F)) :=
  [ StableHlo.nullary main_cst_1 (constant S_ .f32 0x322BCC77#32),
    StableHlo.unary main_cst_1 main_v5 (broadcastInDim S16x1x8 ![] bcast_S_S16x1x8 : (⟨S_, .f32⟩ : BufTy).Contents (Elt F) → (⟨S16x1x8, .f32⟩ : BufTy).Contents (Elt F)),
    StableHlo.binary main_v4 main_v5 main_v6 (addf : (⟨S16x1x8, .f32⟩ : BufTy).Contents (Elt F) → (⟨S16x1x8, .f32⟩ : BufTy).Contents (Elt F) → (⟨S16x1x8, .f32⟩ : BufTy).Contents (Elt F)),
    StableHlo.unary main_v3 main_v7 (broadcastInDim S16x512x8 ![0, 1, 2] bcast_S16x1x8_S16x512x8_0_1_2 : (⟨S16x1x8, .f32⟩ : BufTy).Contents (Elt F) → (⟨S16x512x8, .f32⟩ : BufTy).Contents (Elt F)),
    StableHlo.binary main_arg0 main_v7 main_v8 (subf : (⟨S16x512x8, .f32⟩ : BufTy).Contents (Elt F) → (⟨S16x512x8, .f32⟩ : BufTy).Contents (Elt F) → (⟨S16x512x8, .f32⟩ : BufTy).Contents (Elt F)),
    StableHlo.unary main_v6 main_v9 (broadcastInDim S16x512x8 ![0, 1, 2] bcast_S16x1x8_S16x512x8_0_1_2 : (⟨S16x1x8, .f32⟩ : BufTy).Contents (Elt F) → (⟨S16x512x8, .f32⟩ : BufTy).Contents (Elt F)),
    StableHlo.binary main_v8 main_v9 main_v10 (Host.divf : (⟨S16x512x8, .f32⟩ : BufTy).Contents (Elt F) → (⟨S16x512x8, .f32⟩ : BufTy).Contents (Elt F) → (⟨S16x512x8, .f32⟩ : BufTy).Contents (Elt F)),
    StableHlo.nullary main_v11 (iotaInDim S481 32 0),
    StableHlo.unary main_v11 main_v12 (broadcastInDim S481x1 ![0] bcast_S481_S481x1_0 : (⟨S481, .i32⟩ : BufTy).Contents (Elt F) → (⟨S481x1, .i32⟩ : BufTy).Contents (Elt F)),
    StableHlo.nullary main_v13 (iotaInDim S32 32 0),
    StableHlo.unary main_v13 main_v14 (broadcastInDim S1x32 ![1] bcast_S32_S1x32_1 : (⟨S32, .i32⟩ : BufTy).Contents (Elt F) → (⟨S1x32, .i32⟩ : BufTy).Contents (Elt F)),
    StableHlo.unary main_v12 main_v15 (broadcastInDim S481x32 ![0, 1] bcast_S481x1_S481x32_0_1 : (⟨S481x1, .i32⟩ : BufTy).Contents (Elt F) → (⟨S481x32, .i32⟩ : BufTy).Contents (Elt F)),
    StableHlo.unary main_v14 main_v16 (broadcastInDim S481x32 ![0, 1] bcast_S1x32_S481x32_0_1 : (⟨S1x32, .i32⟩ : BufTy).Contents (Elt F) → (⟨S481x32, .i32⟩ : BufTy).Contents (Elt F)),
    StableHlo.binary main_v15 main_v16 main_v17 (addi : (⟨S481x32, .i32⟩ : BufTy).Contents (Elt F) → (⟨S481x32, .i32⟩ : BufTy).Contents (Elt F) → (⟨S481x32, .i32⟩ : BufTy).Contents (Elt F)),
    StableHlo.nullary main_c_2 (constantI S_ 32 0#32),
    StableHlo.unary main_c_2 main_v18 (broadcastInDim S481x32 ![] bcast_S_S481x32 : (⟨S_, .i32⟩ : BufTy).Contents (Elt F) → (⟨S481x32, .i32⟩ : BufTy).Contents (Elt F)),
    StableHlo.binary main_v17 main_v18 main_v19 (cmpi .slt : (⟨S481x32, .i32⟩ : BufTy).Contents (Elt F) → (⟨S481x32, .i32⟩ : BufTy).Contents (Elt F) → (⟨S481x32, .i1⟩ : BufTy).Contents (Elt F)),
    StableHlo.nullary main_c_3 (constantI S_ 32 512#32),
    StableHlo.unary main_c_3 main_v20 (broadcastInDim S481x32 ![] bcast_S_S481x32 : (⟨S_, .i32⟩ : BufTy).Contents (Elt F) → (⟨S481x32, .i32⟩ : BufTy).Contents (Elt F)),
    StableHlo.binary main_v17 main_v20 main_v21 (addi : (⟨S481x32, .i32⟩ : BufTy).Contents (Elt F) → (⟨S481x32, .i32⟩ : BufTy).Contents (Elt F) → (⟨S481x32, .i32⟩ : BufTy).Contents (Elt F)),
    StableHlo.ternary main_v19 main_v21 main_v17 main_v22 (select : (⟨S481x32, .i1⟩ : BufTy).Contents (Elt F) → (⟨S481x32, .i32⟩ : BufTy).Contents (Elt F) → (⟨S481x32, .i32⟩ : BufTy).Contents (Elt F) → (⟨S481x32, .i32⟩ : BufTy).Contents (Elt F)),
    StableHlo.unary main_v22 main_v23 (broadcastInDim S481x32x1 ![0, 1] bcast_S481x32_S481x32x1_0_1 : (⟨S481x32, .i32⟩ : BufTy).Contents (Elt F) → (⟨S481x32x1, .i32⟩ : BufTy).Contents (Elt F)),
    StableHlo.binary main_v10 main_v23 main_v24 ((fun x i => Host.gather gather_S16x512x8_S481x32x1_S16x481x32x8_03_1_n_n_1_2_1618 x i) : (⟨S16x512x8, .f32⟩ : BufTy).Contents (Elt F) → (⟨S481x32x1, .i32⟩ : BufTy).Contents (Elt F) → (⟨S16x481x32x8, .f32⟩ : BufTy).Contents (Elt F)),
    StableHlo.unary main_v24 main_v25 ((transpose S16x481x8x32 [0, 1, 3, 2] · transposes_S16x481x32x8_S16x481x8x32_0_1_3_2) : (⟨S16x481x32x8, .f32⟩ : BufTy).Contents (Elt F) → (⟨S16x481x8x32, .f32⟩ : BufTy).Contents (Elt F)),
    StableHlo.reshape main_v25 main_v26 rfl shapeCasts_S16x481x8x32_S16x481x32x8,
    StableHlo.nullary main_cst_4 (constant S_ .f32 0x00000000#32),
    StableHlo.binary main_arg1 main_cst_4 main_v27 ((fun x v => Host.reduceAdd x v reducesTo_S64x32x8_S64_d1_2 h_S_) : (⟨S64x32x8, .f32⟩ : BufTy).Contents (Elt F) → (⟨S_, .f32⟩ : BufTy).Contents (Elt F) → (⟨S64, .f32⟩ : BufTy).Contents (Elt F)),
    StableHlo.unary main_v27 main_v28 (broadcastInDim S64x1x1 ![0] bcast_S64_S64x1x1_0 : (⟨S64, .f32⟩ : BufTy).Contents (Elt F) → (⟨S64x1x1, .f32⟩ : BufTy).Contents (Elt F)),
    StableHlo.nullary main_cst_5 (constant S_ .f32 0x43800000#32),
    StableHlo.unary main_cst_5 main_v29 (broadcastInDim S64x1x1 ![] bcast_S_S64x1x1 : (⟨S_, .f32⟩ : BufTy).Contents (Elt F) → (⟨S64x1x1, .f32⟩ : BufTy).Contents (Elt F)),
    StableHlo.binary main_v28 main_v29 main_v30 (Host.divf : (⟨S64x1x1, .f32⟩ : BufTy).Contents (Elt F) → (⟨S64x1x1, .f32⟩ : BufTy).Contents (Elt F) → (⟨S64x1x1, .f32⟩ : BufTy).Contents (Elt F)),
    StableHlo.nullary main_c_6 (constantI S_ 32 0#32) ]
theorem ops2_sub : (ops2 : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩

/-- The twenty-four operations of the second call (the standard deviation of the shapelets). -/
abbrev ops3 : List (HloOp τ sig (Elt F)) :=
  [ StableHlo.TRef.nullary (.of main_call1_call0_cst : StableHlo.TRef sig ⟨S_, .f32⟩) (constant S_ .f32 0x00000000#32),
    StableHlo.TRef.binary (.of main_arg1 : StableHlo.TRef sig ⟨S64x32x8, .f32⟩) (.of main_call1_call0_cst : StableHlo.TRef sig ⟨S_, .f32⟩) (.of main_call1_call0_v0 : StableHlo.TRef sig ⟨S64, .f32⟩) (fun x v => Host.reduceAdd x v reducesTo_S64x32x8_S64_d1_2 h_S_),
    StableHlo.TRef.unary (.of main_call1_call0_v0 : StableHlo.TRef sig ⟨S64, .f32⟩) (.of main_call1_call0_v1 : StableHlo.TRef sig ⟨S64x1x1, .f32⟩) (broadcastInDim S64x1x1 ![0] bcast_S64_S64x1x1_0),
    StableHlo.TRef.nullary (.of main_call1_call0_cst_0 : StableHlo.TRef sig ⟨S_, .f32⟩) (constant S_ .f32 0x43800000#32),
    StableHlo.TRef.unary (.of main_call1_call0_cst_0 : StableHlo.TRef sig ⟨S_, .f32⟩) (.of main_call1_call0_v2 : StableHlo.TRef sig ⟨S64x1x1, .f32⟩) (broadcastInDim S64x1x1 ![] bcast_S_S64x1x1),
    StableHlo.TRef.binary (.of main_call1_call0_v1 : StableHlo.TRef sig ⟨S64x1x1, .f32⟩) (.of main_call1_call0_v2 : StableHlo.TRef sig ⟨S64x1x1, .f32⟩) (.of main_call1_call0_v3 : StableHlo.TRef sig ⟨S64x1x1, .f32⟩) Host.divf,
    StableHlo.TRef.unary (.of main_call1_call0_v3 : StableHlo.TRef sig ⟨S64x1x1, .f32⟩) (.of main_call1_call0_v4 : StableHlo.TRef sig ⟨S64x32x8, .f32⟩) (broadcastInDim S64x32x8 ![0, 1, 2] bcast_S64x1x1_S64x32x8_0_1_2),
    StableHlo.TRef.binary (.of main_arg1 : StableHlo.TRef sig ⟨S64x32x8, .f32⟩) (.of main_call1_call0_v4 : StableHlo.TRef sig ⟨S64x32x8, .f32⟩) (.of main_call1_call0_v5 : StableHlo.TRef sig ⟨S64x32x8, .f32⟩) subf,
    StableHlo.TRef.binary (.of main_call1_call0_v5 : StableHlo.TRef sig ⟨S64x32x8, .f32⟩) (.of main_call1_call0_v5 : StableHlo.TRef sig ⟨S64x32x8, .f32⟩) (.of main_call1_call0_v6 : StableHlo.TRef sig ⟨S64x32x8, .f32⟩) mulf,
    StableHlo.TRef.unary (.of main_c_6 : StableHlo.TRef sig ⟨S_, .i32⟩) (.of main_call1_call0_v7 : StableHlo.TRef sig ⟨S_, .f32⟩) (sitofp .f32),
    StableHlo.TRef.nullary (.of main_call1_call0_cst_1 : StableHlo.TRef sig ⟨S_, .f32⟩) (constant S_ .f32 0x43800000#32),
    StableHlo.TRef.binary (.of main_call1_call0_cst_1 : StableHlo.TRef sig ⟨S_, .f32⟩) (.of main_call1_call0_v7 : StableHlo.TRef sig ⟨S_, .f32⟩) (.of main_call1_call0_v8 : StableHlo.TRef sig ⟨S_, .f32⟩) subf,
    StableHlo.TRef.nullary (.of main_call1_call0_cst_2 : StableHlo.TRef sig ⟨S_, .f32⟩) (constant S_ .f32 0x00000000#32),
    StableHlo.TRef.binary (.of main_call1_call0_v6 : StableHlo.TRef sig ⟨S64x32x8, .f32⟩) (.of main_call1_call0_cst_2 : StableHlo.TRef sig ⟨S_, .f32⟩) (.of main_call1_call0_v9 : StableHlo.TRef sig ⟨S64, .f32⟩) (fun x v => Host.reduceAdd x v reducesTo_S64x32x8_S64_d1_2 h_S_),
    StableHlo.TRef.unary (.of main_call1_call0_v9 : StableHlo.TRef sig ⟨S64, .f32⟩) (.of main_call1_call0_v10 : StableHlo.TRef sig ⟨S64x1x1, .f32⟩) (broadcastInDim S64x1x1 ![0] bcast_S64_S64x1x1_0),
    StableHlo.TRef.unary (.of main_call1_call0_v8 : StableHlo.TRef sig ⟨S_, .f32⟩) (.of main_call1_call0_v11 : StableHlo.TRef sig ⟨S64x1x1, .f32⟩) (broadcastInDim S64x1x1 ![] bcast_S_S64x1x1),
    StableHlo.TRef.binary (.of main_call1_call0_v10 : StableHlo.TRef sig ⟨S64x1x1, .f32⟩) (.of main_call1_call0_v11 : StableHlo.TRef sig ⟨S64x1x1, .f32⟩) (.of main_call1_call0_v12 : StableHlo.TRef sig ⟨S64x1x1, .f32⟩) Host.divf,
    StableHlo.TRef.nullary (.of main_call1_call0_cst_3 : StableHlo.TRef sig ⟨S_, .f32⟩) (constant S_ .f32 0x00000000#32),
    StableHlo.TRef.binary (.of main_call1_call0_v8 : StableHlo.TRef sig ⟨S_, .f32⟩) (.of main_call1_call0_cst_3 : StableHlo.TRef sig ⟨S_, .f32⟩) (.of main_call1_call0_v13 : StableHlo.TRef sig ⟨S_, .i1⟩) (cmpf .ogt),
    StableHlo.TRef.nullary (.of main_call1_call0_cst_4 : StableHlo.TRef sig ⟨S_, .f32⟩) (constant S_ .f32 0x7FC00000#32),
    StableHlo.TRef.unary (.of main_call1_call0_cst_4 : StableHlo.TRef sig ⟨S_, .f32⟩) (.of main_call1_call0_call0_v0 : StableHlo.TRef sig ⟨S_, .f32⟩) id,
    StableHlo.TRef.unary (.of main_call1_call0_call0_v0 : StableHlo.TRef sig ⟨S_, .f32⟩) (.of main_call1_call0_call0_v1 : StableHlo.TRef sig ⟨S64x1x1, .f32⟩) (broadcastInDim S64x1x1 ![] bcast_S_S64x1x1),
    StableHlo.TRef.ternary (.of main_call1_call0_v13 : StableHlo.TRef sig ⟨S_, .i1⟩) (.of main_call1_call0_v12 : StableHlo.TRef sig ⟨S64x1x1, .f32⟩) (.of main_call1_call0_call0_v1 : StableHlo.TRef sig ⟨S64x1x1, .f32⟩) (.of main_call1_v0 : StableHlo.TRef sig ⟨S64x1x1, .f32⟩) (fun p a b => select (broadcastInDim S64x1x1 ![] bcast_S_S64x1x1 p) a b),
    StableHlo.TRef.unary main_call1_call0.call0.v2 (.of main_v31 : StableHlo.TRef sig ⟨S64x1x1, .f32⟩) Host.sqrt ]
theorem ops3_sub : (ops3 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩

/-- The next seven operations: the normalized shapelets. -/
abbrev ops4 : List (HloOp τ sig (Elt F)) :=
  [ StableHlo.nullary main_cst_7 (constant S_ .f32 0x322BCC77#32),
    StableHlo.unary main_cst_7 main_v32 (broadcastInDim S64x1x1 ![] bcast_S_S64x1x1 : (⟨S_, .f32⟩ : BufTy).Contents (Elt F) → (⟨S64x1x1, .f32⟩ : BufTy).Contents (Elt F)),
    StableHlo.binary main_v31 main_v32 main_v33 (addf : (⟨S64x1x1, .f32⟩ : BufTy).Contents (Elt F) → (⟨S64x1x1, .f32⟩ : BufTy).Contents (Elt F) → (⟨S64x1x1, .f32⟩ : BufTy).Contents (Elt F)),
    StableHlo.unary main_v30 main_v34 (broadcastInDim S64x32x8 ![0, 1, 2] bcast_S64x1x1_S64x32x8_0_1_2 : (⟨S64x1x1, .f32⟩ : BufTy).Contents (Elt F) → (⟨S64x32x8, .f32⟩ : BufTy).Contents (Elt F)),
    StableHlo.binary main_arg1 main_v34 main_v35 (subf : (⟨S64x32x8, .f32⟩ : BufTy).Contents (Elt F) → (⟨S64x32x8, .f32⟩ : BufTy).Contents (Elt F) → (⟨S64x32x8, .f32⟩ : BufTy).Contents (Elt F)),
    StableHlo.unary main_v33 main_v36 (broadcastInDim S64x32x8 ![0, 1, 2] bcast_S64x1x1_S64x32x8_0_1_2 : (⟨S64x1x1, .f32⟩ : BufTy).Contents (Elt F) → (⟨S64x32x8, .f32⟩ : BufTy).Contents (Elt F)),
    StableHlo.binary main_v35 main_v36 main_v37 (Host.divf : (⟨S64x32x8, .f32⟩ : BufTy).Contents (Elt F) → (⟨S64x32x8, .f32⟩ : BufTy).Contents (Elt F) → (⟨S64x32x8, .f32⟩ : BufTy).Contents (Elt F)) ]
theorem ops4_sub : (ops4 : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub ..⟩

/-- The last ten operations: the two broadcasts of each operand, the difference, its square, the sum over channels, the minimum over shapelets. -/
abbrev ops5 : List (HloOp τ sig (Elt F)) :=
  [ StableHlo.unary main_v26 main_v38 (broadcastInDim S16x481x1x32x8 ![0, 1, 3, 4] bcast_S16x481x32x8_S16x481x1x32x8_0_1_3_4 : (⟨S16x481x32x8, .f32⟩ : BufTy).Contents (Elt F) → (⟨S16x481x1x32x8, .f32⟩ : BufTy).Contents (Elt F)),
    StableHlo.unary main_v37 main_v39 (broadcastInDim S1x1x64x32x8 ![2, 3, 4] bcast_S64x32x8_S1x1x64x32x8_2_3_4 : (⟨S64x32x8, .f32⟩ : BufTy).Contents (Elt F) → (⟨S1x1x64x32x8, .f32⟩ : BufTy).Contents (Elt F)),
    StableHlo.unary main_v38 main_v40 (broadcastInDim S16x481x64x32x8 ![0, 1, 2, 3, 4] bcast_S16x481x1x32x8_S16x481x64x32x8_0_1_2_3_4 : (⟨S16x481x1x32x8, .f32⟩ : BufTy).Contents (Elt F) → (⟨S16x481x64x32x8, .f32⟩ : BufTy).Contents (Elt F)),
    StableHlo.unary main_v39 main_v41 (broadcastInDim S16x481x64x32x8 ![0, 1, 2, 3, 4] bcast_S1x1x64x32x8_S16x481x64x32x8_0_1_2_3_4 : (⟨S1x1x64x32x8, .f32⟩ : BufTy).Contents (Elt F) → (⟨S16x481x64x32x8, .f32⟩ : BufTy).Contents (Elt F)),
    StableHlo.binary main_v40 main_v41 main_v42 (subf : (⟨S16x481x64x32x8, .f32⟩ : BufTy).Contents (Elt F) → (⟨S16x481x64x32x8, .f32⟩ : BufTy).Contents (Elt F) → (⟨S16x481x64x32x8, .f32⟩ : BufTy).Contents (Elt F)),
    StableHlo.binary main_v42 main_v42 main_v43 (mulf : (⟨S16x481x64x32x8, .f32⟩ : BufTy).Contents (Elt F) → (⟨S16x481x64x32x8, .f32⟩ : BufTy).Contents (Elt F) → (⟨S16x481x64x32x8, .f32⟩ : BufTy).Contents (Elt F)),
    StableHlo.nullary main_cst_8 (constant S_ .f32 0x00000000#32),
    StableHlo.binary main_v43 main_cst_8 main_v44 ((fun x v => Host.reduceAdd x v reducesTo_S16x481x64x32x8_S16x481x64x32_d4 h_S_) : (⟨S16x481x64x32x8, .f32⟩ : BufTy).Contents (Elt F) → (⟨S_, .f32⟩ : BufTy).Contents (Elt F) → (⟨S16x481x64x32, .f32⟩ : BufTy).Contents (Elt F)),
    StableHlo.nullary main_cst_9 (constant S_ .f32 0x7F800000#32),
    StableHlo.binary main_v44 main_cst_9 main_v45 ((fun x v => Host.reduce FloatOps.minimumf x v reducesTo_S16x481x64x32_S16x481x32_d2 h_S_) : (⟨S16x481x64x32, .f32⟩ : BufTy).Contents (Elt F) → (⟨S_, .f32⟩ : BufTy).Contents (Elt F) → (⟨S16x481x32, .f32⟩ : BufTy).Contents (Elt F)) ]
theorem ops5_sub : (ops5 : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub ..⟩

/-! ## @main is the six stretches in a row -/

/-- The program type of @main. -/
abbrev MainProg (F : FTy → Type) [FloatOps F] : Type 1 :=
  Prog (TpuEff nD τ sig (Elt F) (Pipeline.Sig Λ₀ (Fin 0) fun p => (pcfgs (F := F) p).Adm) .tc) PUnit

/-- @main, its calls unfolded, is the six stretches one after the other. -/
theorem main_chain (c : Dev nD) : main (F := F) c = (Pipeline.chain
  [ seq ops0, seq ops1, seq ops2, seq ops3, seq ops4, seq ops5 ] : MainProg F) := by
  chain_rfl

/-- All 104 operations. -/
abbrev ops : List (HloOp τ sig (Elt F)) := ops0 ++ (ops1 ++ (ops2 ++ (ops3 ++ (ops4 ++ ops5))))

/-- Six lines in a row are their concatenation as one line. -/
theorem chain_seq6 (a b c d e f : List (HloOp τ sig (Elt F))) :
    (Pipeline.chain [ seq a, seq b, seq c, seq d, seq e, seq f ] : MainProg F) = seq (a ++ (b ++ (c ++ (d ++ (e ++ f))))) := by
  simp only [seq_append, Pipeline.chain_cons, Pipeline.chain_nil]
  exact congrArg (fun t => seq a >>= fun _ => seq b >>= fun _ => seq c >>= fun _ => seq d >>= fun _ => seq e >>= fun _ => t) (bind_pure (seq f))

theorem main_eq (c : Dev nD) : main (F := F) c = seq ops := (main_chain c).trans (chain_seq6 ops0 ops1 ops2 ops3 ops4 ops5)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops0_sub, List.forall_append.2 ⟨ops1_sub, List.forall_append.2 ⟨ops2_sub,
    List.forall_append.2 ⟨ops3_sub, List.forall_append.2 ⟨ops4_sub, ops5_sub⟩⟩⟩⟩⟩

/-- No operation of a stretch leaves its result to the machine's choice. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.mp h).elim (h₁ op) (h₂ op)

theorem ops_fresh : ∀ op ∈ (ops : List (HloOp τ sig (Elt F))), op.fresh = ∅ :=
  fresh_append ops0_fresh (fresh_append ops1_fresh (fresh_append ops2_fresh (fresh_append ops3_fresh (fresh_append ops4_fresh ops5_fresh))))

/-- The fold over all operations is the stretches' folds, one inside the other. -/
theorem after_ops (V : Valuation τ sig (Elt F)) :
    after ops V = after ops5 (after ops4 (after ops3 (after ops2 (after ops1 (after ops0 V))))) := by
  simp only [ops, StableHlo.after_append]

/-- Every weakly fair execution of @main terminates with each buffer at the fold of the operations over its launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What each stretch leaves

Each fact reads one buffer of the fold of one stretch over any contents `V`: the operations' results are substituted
in order, and what is left is the stage of `Cert.Spec` the stretch computes, unfolded. A buffer a stretch does not write
keeps its contents. -/

attribute [local irreducible] Host.reduceAdd Host.reduce Host.gather transpose shapeCast broadcastInDim Host.divf Host.sqrt select

/-- The series' mean over time. -/
theorem c0_v3 (V : Valuation τ sig (Elt F)) : after ops0 V (main_v3 : DevRef τ sig) = Cert.Spec.meanX (V (main_arg0 : DevRef τ sig)) := by
  after_results_simp
  rfl
/-- The integer zero the first call takes. -/
theorem c0_c (V : Valuation τ sig (Elt F)) : after ops0 V (main_c : DevRef τ sig) = constantI S_ 32 0#32 := by
  after_results_simp
theorem c0_arg0 (V : Valuation τ sig (Elt F)) : after ops0 V (main_arg0 : DevRef τ sig) = V (main_arg0 : DevRef τ sig) := by
  after_results_simp
theorem c0_arg1 (V : Valuation τ sig (Elt F)) : after ops0 V (main_arg1 : DevRef τ sig) = V (main_arg1 : DevRef τ sig) := by
  after_results_simp

/-- The first call's result: the square root of the series' variance. -/
theorem c1_v4 (V : Valuation τ sig (Elt F)) (hc : V (main_c : DevRef τ sig) = constantI S_ 32 0#32) :
    after ops1 V (main_v4 : DevRef τ sig) = Host.sqrt (Cert.Spec.varX (V (main_arg0 : DevRef τ sig))) := by
  after_results_simp
  rw [hc]
  rfl
theorem c1_v3 (V : Valuation τ sig (Elt F)) : after ops1 V (main_v3 : DevRef τ sig) = V (main_v3 : DevRef τ sig) := by
  after_results_simp
theorem c1_arg0 (V : Valuation τ sig (Elt F)) : after ops1 V (main_arg0 : DevRef τ sig) = V (main_arg0 : DevRef τ sig) := by
  after_results_simp
theorem c1_arg1 (V : Valuation τ sig (Elt F)) : after ops1 V (main_arg1 : DevRef τ sig) = V (main_arg1 : DevRef τ sig) := by
  after_results_simp

/-- The windows of the normalized series. -/
theorem c2_v26 (V : Valuation τ sig (Elt F)) (h3 : V (main_v3 : DevRef τ sig) = Cert.Spec.meanX (V (main_arg0 : DevRef τ sig)))
    (h4 : V (main_v4 : DevRef τ sig) = Host.sqrt (Cert.Spec.varX (V (main_arg0 : DevRef τ sig)))) :
    after ops2 V (main_v26 : DevRef τ sig) = Cert.Spec.patches (V (main_arg0 : DevRef τ sig)) := by
  after_results_simp
  rw [h3, h4]
  rfl
/-- The shapelets' mean. -/
theorem c2_v30 (V : Valuation τ sig (Elt F)) : after ops2 V (main_v30 : DevRef τ sig) = Cert.Spec.meanK (V (main_arg1 : DevRef τ sig)) := by
  after_results_simp
  rfl
/-- The integer zero the second call takes. -/
theorem c2_c_6 (V : Valuation τ sig (Elt F)) : after ops2 V (main_c_6 : DevRef τ sig) = constantI S_ 32 0#32 := by
  after_results_simp
theorem c2_arg0 (V : Valuation τ sig (Elt F)) : after ops2 V (main_arg0 : DevRef τ sig) = V (main_arg0 : DevRef τ sig) := by
  after_results_simp
theorem c2_arg1 (V : Valuation τ sig (Elt F)) : after ops2 V (main_arg1 : DevRef τ sig) = V (main_arg1 : DevRef τ sig) := by
  after_results_simp

/-- The second call's result: the square root of the shapelets' variance. -/
theorem c3_v31 (V : Valuation τ sig (Elt F)) (hc : V (main_c_6 : DevRef τ sig) = constantI S_ 32 0#32) :
    after ops3 V (main_v31 : DevRef τ sig) = Host.sqrt (Cert.Spec.varK (V (main_arg1 : DevRef τ sig))) := by
  after_results_simp
  rw [hc]
  rfl
theorem c3_v26 (V : Valuation τ sig (Elt F)) : after ops3 V (main_v26 : DevRef τ sig) = V (main_v26 : DevRef τ sig) := by
  after_results_simp
theorem c3_v30 (V : Valuation τ sig (Elt F)) : after ops3 V (main_v30 : DevRef τ sig) = V (main_v30 : DevRef τ sig) := by
  after_results_simp
theorem c3_arg0 (V : Valuation τ sig (Elt F)) : after ops3 V (main_arg0 : DevRef τ sig) = V (main_arg0 : DevRef τ sig) := by
  after_results_simp
theorem c3_arg1 (V : Valuation τ sig (Elt F)) : after ops3 V (main_arg1 : DevRef τ sig) = V (main_arg1 : DevRef τ sig) := by
  after_results_simp

/-- The normalized shapelets. -/
theorem c4_v37 (V : Valuation τ sig (Elt F)) (h30 : V (main_v30 : DevRef τ sig) = Cert.Spec.meanK (V (main_arg1 : DevRef τ sig)))
    (h31 : V (main_v31 : DevRef τ sig) = Host.sqrt (Cert.Spec.varK (V (main_arg1 : DevRef τ sig)))) :
    after ops4 V (main_v37 : DevRef τ sig) = Cert.Spec.kern (V (main_arg1 : DevRef τ sig)) := by
  after_results_simp
  rw [h30, h31]
  rfl
theorem c4_v26 (V : Valuation τ sig (Elt F)) : after ops4 V (main_v26 : DevRef τ sig) = V (main_v26 : DevRef τ sig) := by
  after_results_simp
theorem c4_arg0 (V : Valuation τ sig (Elt F)) : after ops4 V (main_arg0 : DevRef τ sig) = V (main_arg0 : DevRef τ sig) := by
  after_results_simp
theorem c4_arg1 (V : Valuation τ sig (Elt F)) : after ops4 V (main_arg1 : DevRef τ sig) = V (main_arg1 : DevRef τ sig) := by
  after_results_simp

/-- The minimum over shapelets of the squared distance. -/
theorem c5_v45 (V : Valuation τ sig (Elt F)) :
    after ops5 V (main_v45 : DevRef τ sig) = Cert.Spec.distMin (V (main_v26 : DevRef τ sig)) (V (main_v37 : DevRef τ sig)) := by
  after_results_simp
  rfl
theorem c5_arg0 (V : Valuation τ sig (Elt F)) : after ops5 V (main_arg0 : DevRef τ sig) = V (main_arg0 : DevRef τ sig) := by
  after_results_simp
theorem c5_arg1 (V : Valuation τ sig (Elt F)) : after ops5 V (main_arg1 : DevRef τ sig) = V (main_arg1 : DevRef τ sig) := by
  after_results_simp

/-! ## The whole line's results -/

/-- After all operations the result buffer holds the composed function of the two arguments' contents. -/
theorem res_v45 (V : Valuation τ sig (Elt F)) :
    after ops V (main_v45 : DevRef τ sig) = Cert.Spec.result (V (main_arg0 : DevRef τ sig)) (V (main_arg1 : DevRef τ sig)) := by
  rw [after_ops]
  -- the first seven operations
  have a0 : (after ops0 V) (main_arg0 : DevRef τ sig) = V (main_arg0 : DevRef τ sig) := c0_arg0 V
  have b0 : (after ops0 V) (main_arg1 : DevRef τ sig) = V (main_arg1 : DevRef τ sig) := c0_arg1 V
  have m0 : (after ops0 V) (main_v3 : DevRef τ sig) = Cert.Spec.meanX (V (main_arg0 : DevRef τ sig)) := c0_v3 V
  have z0 : (after ops0 V) (main_c : DevRef τ sig) = constantI S_ 32 0#32 := c0_c V
  -- the first call
  have a1 : (after ops1 (after ops0 V)) (main_arg0 : DevRef τ sig) = V (main_arg0 : DevRef τ sig) := (c1_arg0 _).trans a0
  have b1 : (after ops1 (after ops0 V)) (main_arg1 : DevRef τ sig) = V (main_arg1 : DevRef τ sig) := (c1_arg1 _).trans b0
  have m1 : (after ops1 (after ops0 V)) (main_v3 : DevRef τ sig) = Cert.Spec.meanX (V (main_arg0 : DevRef τ sig)) := (c1_v3 _).trans m0
  have s1 : (after ops1 (after ops0 V)) (main_v4 : DevRef τ sig) = Host.sqrt (Cert.Spec.varX (V (main_arg0 : DevRef τ sig))) := (c1_v4 _ z0).trans (by rw [a0])
  -- the windows and the shapelets' mean
  have a2 : (after ops2 (after ops1 (after ops0 V))) (main_arg0 : DevRef τ sig) = V (main_arg0 : DevRef τ sig) := (c2_arg0 _).trans a1
  have b2 : (after ops2 (after ops1 (after ops0 V))) (main_arg1 : DevRef τ sig) = V (main_arg1 : DevRef τ sig) := (c2_arg1 _).trans b1
  have p2 : (after ops2 (after ops1 (after ops0 V))) (main_v26 : DevRef τ sig) = Cert.Spec.patches (V (main_arg0 : DevRef τ sig)) :=
    (c2_v26 _ (m1.trans (by rw [a1])) (s1.trans (by rw [a1]))).trans (by rw [a1])
  have k2 : (after ops2 (after ops1 (after ops0 V))) (main_v30 : DevRef τ sig) = Cert.Spec.meanK (V (main_arg1 : DevRef τ sig)) := (c2_v30 _).trans (by rw [b1])
  have z2 : (after ops2 (after ops1 (after ops0 V))) (main_c_6 : DevRef τ sig) = constantI S_ 32 0#32 := c2_c_6 _
  -- the second call
  have b3 : (after ops3 (after ops2 (after ops1 (after ops0 V)))) (main_arg1 : DevRef τ sig) = V (main_arg1 : DevRef τ sig) := (c3_arg1 _).trans b2
  have p3 : (after ops3 (after ops2 (after ops1 (after ops0 V)))) (main_v26 : DevRef τ sig) = Cert.Spec.patches (V (main_arg0 : DevRef τ sig)) := (c3_v26 _).trans p2
  have k3 : (after ops3 (after ops2 (after ops1 (after ops0 V)))) (main_v30 : DevRef τ sig) = Cert.Spec.meanK (V (main_arg1 : DevRef τ sig)) := (c3_v30 _).trans k2
  have s3 : (after ops3 (after ops2 (after ops1 (after ops0 V)))) (main_v31 : DevRef τ sig) = Host.sqrt (Cert.Spec.varK (V (main_arg1 : DevRef τ sig))) := (c3_v31 _ z2).trans (by rw [b2])
  -- the normalized shapelets
  have p4 : (after ops4 (after ops3 (after ops2 (after ops1 (after ops0 V))))) (main_v26 : DevRef τ sig) = Cert.Spec.patches (V (main_arg0 : DevRef τ sig)) := (c4_v26 _).trans p3
  have q4 : (after ops4 (after ops3 (after ops2 (after ops1 (after ops0 V))))) (main_v37 : DevRef τ sig) = Cert.Spec.kern (V (main_arg1 : DevRef τ sig)) :=
    (c4_v37 _ (k3.trans (by rw [b3])) (s3.trans (by rw [b3]))).trans (by rw [b3])
  -- the distance and its minimum
  rw [c5_v45, p4, q4]
  rfl

/-- The first argument is unchanged. -/
theorem res_arg0 (V : Valuation τ sig (Elt F)) : after ops V (main_arg0 : DevRef τ sig) = V (main_arg0 : DevRef τ sig) := by
  rw [after_ops, c5_arg0, c4_arg0, c3_arg0, c2_arg0, c1_arg0, c0_arg0]

/-- The second argument is unchanged. -/
theorem res_arg1 (V : Valuation τ sig (Elt F)) : after ops V (main_arg1 : DevRef τ sig) = V (main_arg1 : DevRef τ sig) := by
  rw [after_ops, c5_arg1, c4_arg1, c3_arg1, c2_arg1, c1_arg1, c0_arg1]

/-! ## The run -/

/-- On every device, for any float values, from any memory with zero counters: every weakly fair execution of @main
    terminates with the result buffer at `Cert.Spec.result` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v45)
          = Cert.Spec.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v45).trans (res_v45 (launchContents m c)),
      (h c main_arg0).trans (res_arg0 (launchContents m c)),
      (h c main_arg1).trans (res_arg1 (launchContents m c))⟩)
    (run_after m ρ)

end Cert.ReferenceIdeal.Run

end
-- ==== Proof.Pre.lean ====
/-
  The precondition read back.  `finite_inputs` is `all(|x| < +∞) ∧ all(|w| < +∞)`; where it is all ones, every entry
  of both arguments is a real number: an extended real whose absolute value `max a (-a)` is below `+∞` is neither
  infinity.
-/
import proofs.«164180_j14310831030969_1_alg».proof.Pre_finite_inputs
import proofs.«164180_j14310831030969_1_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Idealize.ShloMosaic.ValueIdx Cert.Pre_finite_inputs

instance : Subsingleton S_.Idx := ⟨fun a b => funext fun d => d.elim0⟩

/-- The word `0x7F800000` is `+∞`. -/
theorem inf_word : Ideal.ofBits .f32 0x7F800000#32 = (⊤ : EReal) := by simp [Ideal.ofBits, Ideal.ieee]

/-- An extended real whose absolute value compares below `+∞` is a real. -/
theorem real_of_abs_lt (a : EReal) (h : Ideal.cmp .olt (max a (-a)) (Ideal.ofBits .f32 0x7F800000#32) = 1#1) :
    ∃ r : ℝ, a = (r : EReal) := by
  rw [inf_word] at h
  induction a using EReal.rec with
  | bot => simp [Ideal.cmp] at h
  | coe r => exact ⟨r, rfl⟩
  | top => simp [Ideal.cmp] at h

/-- Where the precondition is all ones, both arguments are real-valued. -/
theorem real_of_pre (x : FVec Ideal S16x512x8 .f32) (w : FVec Ideal S64x32x8 .f32)
    (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨h1, h2⟩ := IntOp.andi_eq_one.1 h0
  exact ⟨fun i => real_of_abs_lt (x i) (Host.reduce_andi_all _ _ _ _ ix0 h1 i),
    fun i => real_of_abs_lt (w i) (Host.reduce_andi_all _ _ _ _ ix0 h2 i)⟩

end Cert.Pre_finite_inputs.Decode

end
-- ==== Proof.lean ====
/-
  A sliding-window shapelet distance: for every batch `b`, window start `t` and offset `k`, the minimum over 64
  shapelets of the squared distance, summed over 8 channels, between the normalized window entry and the normalized
  shapelet entry.  The kernel's program and the reference apply the same host operations to the arguments (the
  normalizations over time and over each shapelet, the gather of the windows, the transpose and the row-major
  re-read); the kernel then computes, one batch per grid point, `(∑ p² - 2·∑ p·q) + ∑ q²`, the cross term accumulated
  channel by channel, and the reference `∑ (p - q)²`.  The two agree for real `p`, `q` (the binomial expansion) and
  not at infinities, so the precondition is used: finite inputs have real means, real and non-negative variances,
  hence real positive `std + ε` and real normalized values.

  The three frames are the generated frames of the two kernel programs and the reference's run with its result
  dropped; the idealization rewrote nothing, so `preserves` asks nothing; `algebraic` sets the kernel's run
  (its output array read block by block) beside the reference's run, both at the same function of the arguments.
-/
import proofs.«164180_j14310831030969_1_alg».proof.Defs
import proofs.«164180_j14310831030969_1_alg».proof.Proof.Gen.Kernel
import proofs.«164180_j14310831030969_1_alg».proof.Proof.Gen.Kernel.Skeleton
import proofs.«164180_j14310831030969_1_alg».proof.Proof.Gen.Kernel.Launch
import proofs.«164180_j14310831030969_1_alg».proof.Proof.Gen.Kernel.Points
import proofs.«164180_j14310831030969_1_alg».proof.Proof.Gen.Kernel.Frame
import proofs.«164180_j14310831030969_1_alg».proof.Proof.Gen.KernelIdeal
import proofs.«164180_j14310831030969_1_alg».proof.Proof.Gen.KernelIdeal.Skeleton
import proofs.«164180_j14310831030969_1_alg».proof.Proof.Gen.KernelIdeal.Launch
import proofs.«164180_j14310831030969_1_alg».proof.Proof.Gen.KernelIdeal.Points
import proofs.«164180_j14310831030969_1_alg».proof.Proof.Gen.KernelIdeal.Frame
import proofs.«164180_j14310831030969_1_alg».proof.Proof.Gen.ReferenceIdeal
import proofs.«164180_j14310831030969_1_alg».proof.Proof.Gen.Pre_finite_inputs
import proofs.«164180_j14310831030969_1_alg».proof.Proof.KernelValue
import proofs.«164180_j14310831030969_1_alg».proof.Proof.RefRun
import proofs.«164180_j14310831030969_1_alg».proof.Proof.Pre
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Run.run (F := Ideal) m ρ)

/-- From memories that agree on the arguments, both programs end at the same function of the arguments: the
    kernel's output array is that function where the arguments are real-valued, which the precondition gives. -/
theorem algebraic : Cert.algebraic_KernelIdeal_ReferenceIdeal := by
  intro m ρ m' ρ' hpre hagree
  have hreal := fun c => Cert.Pre_finite_inputs.Decode.real_of_pre _ _ (hpre c)
  refine ⟨_, Cert.KernelIdeal.KValue.run m ρ hreal, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
